-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100x81 : Shape := ⟨3, ![8, 100, 81]⟩
abbrev S8x100x256x256 : Shape := ⟨4, ![8, 100, 256, 256]⟩
abbrev S160 : Shape := ⟨1, ![160]⟩
abbrev S160x65536 : Shape := ⟨2, ![160, 65536]⟩
abbrev S_ : Shape := ⟨0, ![]⟩

class Facts : Prop where
  bcast_S_S8x100x81 : S_.BroadcastsInDim S8x100x81 (![] : Fin 0 → Fin S8x100x81.rank)
  reducesTo_S8x100x81_S_d0_1_2 : S8x100x81.ReducesTo [0, 1, 2] S_
  h_S_ : 0 < S_.numel
  bcast_S_S8x100x256x256 : S_.BroadcastsInDim S8x100x256x256 (![] : Fin 0 → Fin S8x100x256x256.rank)
  reducesTo_S8x100x256x256_S_d0_1_2_3 : S8x100x256x256.ReducesTo [0, 1, 2, 3] S_
  bcast_S_S160x65536 : S_.BroadcastsInDim S160x65536 (![] : Fin 0 → Fin S160x65536.rank)
  reducesTo_S160x65536_S_d0_1 : S160x65536.ReducesTo [0, 1] S_

variable [Facts]

def fn {F : FTy → Type} [FloatOps F] (main_arg0 : FVec F S8x100x81 .f32) (main_arg1 : FVec F S8x100x256x256 .f32) (main_arg2 : IVec S160 32) (main_arg3 : FVec F S160x65536 .f32) : IVec S_ 1 :=
  let main_v0 : FVec F S8x100x81 .f32 := Host.absf main_arg0
  let main_cst : FVec F S_ .f32 := constant S_ .f32 0x7F800000#32
  let main_v1 : FVec F S8x100x81 .f32 := broadcastInDim S8x100x81 ![] bcast_S_S8x100x81 main_cst
  let main_v2 : IVec S8x100x81 1 := cmpf .olt main_v0 main_v1
  let main_c : IVec S_ 1 := constantI S_ 1 1#1
  let main_v3 : IVec S_ 1 := (fun x v => Host.reduce IntOp.andi x v reducesTo_S8x100x81_S_d0_1_2 h_S_) main_v2 main_c
  let main_v4 : FVec F S8x100x256x256 .f32 := Host.absf main_arg1
  let main_cst_0 : FVec F S_ .f32 := constant S_ .f32 0x7F800000#32
  let main_v5 : FVec F S8x100x256x256 .f32 := broadcastInDim S8x100x256x256 ![] bcast_S_S8x100x256x256 main_cst_0
  let main_v6 : IVec S8x100x256x256 1 := cmpf .olt main_v4 main_v5
  let main_c_1 : IVec S_ 1 := constantI S_ 1 1#1
  let main_v7 : IVec S_ 1 := (fun x v => Host.reduce IntOp.andi x v reducesTo_S8x100x256x256_S_d0_1_2_3 h_S_) main_v6 main_c_1
  let main_v8 : IVec S_ 1 := andi main_v3 main_v7
  let main_v9 : FVec F S160x65536 .f32 := Host.absf main_arg3
  let main_cst_2 : FVec F S_ .f32 := constant S_ .f32 0x7F800000#32
  let main_v10 : FVec F S160x65536 .f32 := broadcastInDim S160x65536 ![] bcast_S_S160x65536 main_cst_2
  let main_v11 : IVec S160x65536 1 := cmpf .olt main_v9 main_v10
  let main_c_3 : IVec S_ 1 := constantI S_ 1 1#1
  let main_v12 : IVec S_ 1 := (fun x v => Host.reduce IntOp.andi x v reducesTo_S160x65536_S_d0_1 h_S_) main_v11 main_c_3
  let main_v13 : IVec S_ 1 := andi main_v8 main_v12
  main_v13
-- ==== Kernel.lean ====
abbrev S8x100x81 : Shape := ⟨3, ![8, 100, 81]⟩
abbrev S8x100x256x256 : Shape := ⟨4, ![8, 100, 256, 256]⟩
abbrev S160 : Shape := ⟨1, ![160]⟩
abbrev S160x65536 : Shape := ⟨2, ![160, 65536]⟩
abbrev S800x81 : Shape := ⟨2, ![800, 81]⟩
abbrev S_ : Shape := ⟨0, ![]⟩
abbrev S800 : Shape := ⟨1, ![800]⟩
abbrev S800x1 : Shape := ⟨2, ![800, 1]⟩
abbrev S160x1 : Shape := ⟨2, ![160, 1]⟩
abbrev S800x160 : Shape := ⟨2, ![800, 160]⟩
abbrev S800x65536 : Shape := ⟨2, ![800, 65536]⟩
abbrev S1x160 : Shape := ⟨2, ![1, 160]⟩
abbrev S200x4096 : Shape := ⟨2, ![200, 4096]⟩
abbrev S160x4096 : Shape := ⟨2, ![160, 4096]⟩
abbrev S200x160 : Shape := ⟨2, ![200, 160]⟩
abbrev S200x1 : Shape := ⟨2, ![200, 1]⟩
abbrev S200 : Shape := ⟨1, ![200]⟩
abbrev S8x100x160 : Shape := ⟨3, ![8, 100, 160]⟩

abbrev nBuf : Space → Nat
  | .hbm => 36
  | .vmem => 13
  | .smem => 0
  | _ => 0

abbrev bufTy : (tb : Table) → Fin (tcTables nBuf tb) → BufTy
  | .hbm, ⟨0, _⟩ => ⟨S8x100x81, .f32⟩
  | .hbm, ⟨1, _⟩ => ⟨S8x100x256x256, .f32⟩
  | .hbm, ⟨2, _⟩ => ⟨S160, .i32⟩
  | .hbm, ⟨3, _⟩ => ⟨S160x65536, .f32⟩
  | .hbm, ⟨4, _⟩ => ⟨S800x81, .f32⟩
  | .hbm, ⟨5, _⟩ => ⟨S_, .f32⟩
  | .hbm, ⟨6, _⟩ => ⟨S800, .f32⟩
  | .hbm, ⟨7, _⟩ => ⟨S_, .f32⟩
  | .hbm, ⟨8, _⟩ => ⟨S800, .f32⟩
  | .hbm, ⟨9, _⟩ => ⟨S800, .f32⟩
  | .hbm, ⟨10, _⟩ => ⟨S800x1, .f32⟩
  | .hbm, ⟨11, _⟩ => ⟨S800x81, .f32⟩
  | .hbm, ⟨12, _⟩ => ⟨S800x81, .f32⟩
  | .hbm, ⟨13, _⟩ => ⟨S800x81, .f32⟩
  | .hbm, ⟨14, _⟩ => ⟨S_, .f32⟩
  | .hbm, ⟨15, _⟩ => ⟨S800, .f32⟩
  | .hbm, ⟨16, _⟩ => ⟨S800x1, .f32⟩
  | .hbm, ⟨17, _⟩ => ⟨S800x81, .f32⟩
  | .hbm, ⟨18, _⟩ => ⟨S800x81, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S800x160, .f32⟩
  | .hbm, ⟨28, _⟩ => ⟨S800x160, .f32⟩
  | .hbm, ⟨29, _⟩ => ⟨S800x65536, .f32⟩
  | .hbm, ⟨30, _⟩ => ⟨S_, .f32⟩
  | .hbm, ⟨31, _⟩ => ⟨S160, .f32⟩
  | .hbm, ⟨32, _⟩ => ⟨S160x1, .f32⟩
  | .hbm, ⟨33, _⟩ => ⟨S1x160, .f32⟩
  | .hbm, ⟨34, _⟩ => ⟨S800x160, .f32⟩
  | .hbm, ⟨35, _⟩ => ⟨S8x100x160, .f32⟩
  | .local _ .vmem, ⟨0, _⟩ => ⟨S200x4096, .f32⟩
  | .local _ .vmem, ⟨1, _⟩ => ⟨S200x4096, .f32⟩
  | .local _ .vmem, ⟨2, _⟩ => ⟨S160x4096, .f32⟩
  | .local _ .vmem, ⟨3, _⟩ => ⟨S160x4096, .f32⟩
  | .local _ .vmem, ⟨4, _⟩ => ⟨S200x160, .f32⟩
  | .local _ .vmem, ⟨5, _⟩ => ⟨S200x160, .f32⟩
  | .local _ .vmem, ⟨6, _⟩ => ⟨S1x160, .f32⟩
  | .local _ .vmem, ⟨7, _⟩ => ⟨S200x160, .f32⟩
  | .local _ .vmem, ⟨8, _⟩ => ⟨S200x160, .f32⟩
  | .local _ .vmem, ⟨9, _⟩ => ⟨S200x1, .f32⟩
  | .local _ .vmem, ⟨10, _⟩ => ⟨S200x1, .f32⟩
  | .local _ .vmem, ⟨11, _⟩ => ⟨S200x160, .f32⟩
  | .local _ .vmem, ⟨12, _⟩ => ⟨S200x160, .f32⟩
  | _, _ => ⟨S8x100x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S200x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S160x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S200x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S200x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x100x81_S800x81 : S8x100x81.ShapeCasts S800x81
  reducesTo_S800x81_S800_d1 : S800x81.ReducesTo [1] S800
  h_S_ : 0 < S_.numel
  bcast_S_S800 : S_.BroadcastsInDim S800 (![] : Fin 0 → Fin S800.rank)
  bcast_S800_S800x1_0 : S800.BroadcastsInDim S800x1 (![0] : Fin 1 → Fin S800x1.rank)
  bcast_S800x1_S800x81_0_1 : S800x1.BroadcastsInDim S800x81 (![0, 1] : Fin 2 → Fin S800x81.rank)
  bcast_S_S160 : S_.BroadcastsInDim S160 (![] : Fin 0 → Fin S160.rank)
  bcast_S160_S160x1_0 : S160.BroadcastsInDim S160x1 (![0] : Fin 1 → Fin S160x1.rank)
  shapeCasts_S8x100x256x256_S800x65536 : S8x100x256x256.ShapeCasts S800x65536
  reducesTo_S160x65536_S160_d1 : S160x65536.ReducesTo [1] S160
  shapeCasts_S160x1_S1x160 : S160x1.ShapeCasts S1x160
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S200x160_S200x160_0_0 : ∀ a, (![0, 0] : Fin 2 → Nat) a + S200x160.size a ≤ S200x160.size a
  h_S200x160 : 0 < S200x160.numel
  shapeCasts_S200x160_S200x160 : S200x160.ShapeCasts S200x160
  inb_S200x4096_S200x4096_0_0 : ∀ a, (![0, 0] : Fin 2 → Nat) a + S200x4096.size a ≤ S200x4096.size a
  h_S200x4096 : 0 < S200x4096.numel
  shapeCasts_S200x4096_S200x4096 : S200x4096.ShapeCasts S200x4096
  inb_S160x4096_S160x4096_0_0 : ∀ a, (![0, 0] : Fin 2 → Nat) a + S160x4096.size a ≤ S160x4096.size a
  h_S160x4096 : 0 < S160x4096.numel
  reduces_S200x4096_S200 : S200x4096.Reduces [1] S200
  shapeCasts_S200_S200x1 : S200.ShapeCasts S200x1
  bitsLt_bf16_f32 : FTy.bits .bf16 < FTy.bits .f32
  broadcasts_S200x1_S200x160 : S200x1.Broadcasts S200x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S200x160 : S1x160.Broadcasts S200x160
  shapeCasts_S800x160_S8x100x160 : S800x160.ShapeCasts S8x100x160
  gather_S800x81_S160x1_S800x160_0_1_n_n_1_1_8001_wf : GatherDims.WF S800x81 S160x1 S800x160 [0] [1] [] [1] [] 1 ![800, 1]
  dot_S200x4096_S160x4096_S200x160_1_1_0_0_n_n_wf : DotDims.WF S200x4096 S160x4096 S200x160 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x4096.size a ≤ S800x65536.size a
  hwx0_0 : ∀ i : grid0.Coords, EltTy.bits .f32 = 32 ∨ (Rect.block (s := S800x65536) S200x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S160x4096.size a ≤ S160x65536.size a
  hwx0_1 : ∀ i : grid0.Coords, EltTy.bits .f32 = 32 ∨ (Rect.block (s := S160x65536) S160x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x160.size a ≤ S800x160.size a
  hwx0_2 : ∀ i : grid0.Coords, EltTy.bits .f32 = 32 ∨ (Rect.block (s := S800x160) S200x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x160.size a ≤ S1x160.size a
  hwx0_3 : ∀ i : grid0.Coords, EltTy.bits .f32 = 32 ∨ (Rect.block (s := S1x160) S1x160.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x160.size a ≤ S800x160.size a
  hwx0_4 : ∀ i : grid0.Coords, EltTy.bits .f32 = 32 ∨ (Rect.block (s := S800x160) S200x160.size (cc0_transform_4 i) (hinb0_4 i)).WholeWords (EltTy.packing .f32)

variable [Facts₀]

def gather_S800x81_S160x1_S800x160_0_1_n_n_1_1_8001 : GatherDims S800x81 S160x1 S800x160 where
  offsetDims := [0]
  collapsedSliceDims := [1]
  operandBatchingDims := []
  startIndicesBatchingDims := []
  startIndexMap := [1]
  indexVectorDim := 1
  sliceSizes := ![800, 1]
  wf := gather_S800x81_S160x1_S800x160_0_1_n_n_1_1_8001_wf
def dot_S200x4096_S160x4096_S200x160_1_1_0_0_n_n : DotDims S200x4096 S160x4096 S200x160 where
  lhsContracting := [1]
  rhsContracting := [1]
  lhsNonContracting := [0]
  rhsNonContracting := [0]
  lhsBatch := []
  rhsBatch := []
  wf := dot_S200x4096_S160x4096_S200x160_1_1_0_0_n_n_wf

abbrev win0_0 : Pipeline.Window sig grid0 :=
  Pipeline.Window.ofSpec (Memref.whole main_v20) S200x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S160x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S200x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S200x160.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x100x81 : Shape := ⟨3, ![8, 100, 81]⟩
abbrev S8x100x256x256 : Shape := ⟨4, ![8, 100, 256, 256]⟩
abbrev S160 : Shape := ⟨1, ![160]⟩
abbrev S160x65536 : Shape := ⟨2, ![160, 65536]⟩
abbrev S800x81 : Shape := ⟨2, ![800, 81]⟩
abbrev S_ : Shape := ⟨0, ![]⟩
abbrev S800 : Shape := ⟨1, ![800]⟩
abbrev S800x1 : Shape := ⟨2, ![800, 1]⟩
abbrev S160x1 : Shape := ⟨2, ![160, 1]⟩
abbrev S800x160 : Shape := ⟨2, ![800, 160]⟩
abbrev S800x65536 : Shape := ⟨2, ![800, 65536]⟩
abbrev S65536x160 : Shape := ⟨2, ![65536, 160]⟩
abbrev S1x160 : Shape := ⟨2, ![1, 160]⟩
abbrev S8x100x160 : Shape := ⟨3, ![8, 100, 160]⟩

abbrev nBuf : Space → Nat
  | .hbm => 92
  | .vmem => 0
  | .smem => 0
  | _ => 0

abbrev bufTy : (tb : Table) → Fin (tcTables nBuf tb) → BufTy
  | .hbm, ⟨0, _⟩ => ⟨S8x100x81, .f32⟩
  | .hbm, ⟨1, _⟩ => ⟨S8x100x256x256, .f32⟩
  | .hbm, ⟨2, _⟩ => ⟨S160, .i32⟩
  | .hbm, ⟨3, _⟩ => ⟨S160x65536, .f32⟩
  | .hbm, ⟨4, _⟩ => ⟨S800x81, .f32⟩
  | .hbm, ⟨5, _⟩ => ⟨S_, .f32⟩
  | .hbm, ⟨6, _⟩ => ⟨S800, .f32⟩
  | .hbm, ⟨7, _⟩ => ⟨S_, .f32⟩
  | .hbm, ⟨8, _⟩ => ⟨S800, .f32⟩
  | .hbm, ⟨9, _⟩ => ⟨S800, .f32⟩
  | .hbm, ⟨10, _⟩ => ⟨S800x1, .f32⟩
  | .hbm, ⟨11, _⟩ => ⟨S800x81, .f32⟩
  | .hbm, ⟨12, _⟩ => ⟨S800x81, .f32⟩
  | .hbm, ⟨13, _⟩ => ⟨S800x81, .f32⟩
  | .hbm, ⟨14, _⟩ => ⟨S_, .f32⟩
  | .hbm, ⟨15, _⟩ => ⟨S800, .f32⟩
  | .hbm, ⟨16, _⟩ => ⟨S800x1, .f32⟩
  | .hbm, ⟨17, _⟩ => ⟨S800x81, .f32⟩
  | .hbm, ⟨18, _⟩ => ⟨S800x81, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S800x160, .f32⟩
  | .hbm, ⟨28, _⟩ => ⟨S800x160, .f32⟩
  | .hbm, ⟨29, _⟩ => ⟨S800x65536, .f32⟩
  | .hbm, ⟨30, _⟩ => ⟨S_, .f32⟩
  | .hbm, ⟨31, _⟩ => ⟨S800x65536, .f32⟩
  | .hbm, ⟨32, _⟩ => ⟨S800x65536, .f32⟩
  | .hbm, ⟨33, _⟩ => ⟨S800x65536, .f32⟩
  | .hbm, ⟨34, _⟩ => ⟨S800x65536, .f32⟩
  | .hbm, ⟨35, _⟩ => ⟨S800x65536, .f32⟩
  | .hbm, ⟨36, _⟩ => ⟨S800x65536, .f32⟩
  | .hbm, ⟨37, _⟩ => ⟨S800x65536, .f32⟩
  | .hbm, ⟨38, _⟩ => ⟨S_, .f32⟩
  | .hbm, ⟨39, _⟩ => ⟨S800, .f32⟩
  | .hbm, ⟨40, _⟩ => ⟨S65536x160, .f32⟩
  | .hbm, ⟨41, _⟩ => ⟨S800x160, .f32⟩
  | .hbm, ⟨42, _⟩ => ⟨S800x1, .f32⟩
  | .hbm, ⟨43, _⟩ => ⟨S800x160, .f32⟩
  | .hbm, ⟨44, _⟩ => ⟨S800x160, .f32⟩
  | .hbm, ⟨45, _⟩ => ⟨S_, .f32⟩
  | .hbm, ⟨46, _⟩ => ⟨S800x160, .f32⟩
  | .hbm, ⟨47, _⟩ => ⟨S800x160, .f32⟩
  | .hbm, ⟨48, _⟩ => ⟨S800x65536, .f32⟩
  | .hbm, ⟨49, _⟩ => ⟨S800x65536, .f32⟩
  | .hbm, ⟨50, _⟩ => ⟨S_, .f32⟩
  | .hbm, ⟨51, _⟩ => ⟨S800x65536, .f32⟩
  | .hbm, ⟨52, _⟩ => ⟨S800x65536, .f32⟩
  | .hbm, ⟨53, _⟩ => ⟨S_, .f32⟩
  | .hbm, ⟨54, _⟩ => ⟨S800x65536, .f32⟩
  | .hbm, ⟨55, _⟩ => ⟨S800x65536, .f32⟩
  | .hbm, ⟨56, _⟩ => ⟨S65536x160, .f32⟩
  | .hbm, ⟨57, _⟩ => ⟨S800x160, .f32⟩
  | .hbm, ⟨58, _⟩ => ⟨S_, .f32⟩
  | .hbm, ⟨59, _⟩ => ⟨S800x160, .f32⟩
  | .hbm, ⟨60, _⟩ => ⟨S800x160, .f32⟩
  | .hbm, ⟨61, _⟩ => ⟨S_, .f32⟩
  | .hbm, ⟨62, _⟩ => ⟨S800, .f32⟩
  | .hbm, ⟨63, _⟩ => ⟨S800x1, .f32⟩
  | .hbm, ⟨64, _⟩ => ⟨S_, .f32⟩
  | .hbm, ⟨65, _⟩ => ⟨S160, .f32⟩
  | .hbm, ⟨66, _⟩ => ⟨S1x160, .f32⟩
  | .hbm, ⟨67, _⟩ => ⟨S800x160, .f32⟩
  | .hbm, ⟨68, _⟩ => ⟨S800x160, .f32⟩
  | .hbm, ⟨69, _⟩ => ⟨S800x160, .f32⟩
  | .hbm, ⟨70, _⟩ => ⟨S_, .f32⟩
  | .hbm, ⟨71, _⟩ => ⟨S800x160, .f32⟩
  | .hbm, ⟨72, _⟩ => ⟨S800x160, .f32⟩
  | .hbm, ⟨73, _⟩ => ⟨S_, .f32⟩
  | .hbm, ⟨74, _⟩ => ⟨S800x160, .f32⟩
  | .hbm, ⟨75, _⟩ => ⟨S800x160, .f32⟩
  | .hbm, ⟨76, _⟩ => ⟨S800x160, .f32⟩
  | .hbm, ⟨77, _⟩ => ⟨S_, .f32⟩
  | .hbm, ⟨78, _⟩ => ⟨S800x160, .f32⟩
  | .hbm, ⟨79, _⟩ => ⟨S800x160, .f32⟩
  | .hbm, ⟨80, _⟩ => ⟨S_, .f32⟩
  | .hbm, ⟨81, _⟩ => ⟨S800x160, .f32⟩
  | .hbm, ⟨82, _⟩ => ⟨S800x160, .f32⟩
  | .hbm, ⟨83, _⟩ => ⟨S_, .f32⟩
  | .hbm, ⟨84, _⟩ => ⟨S800x160, .f32⟩
  | .hbm, ⟨85, _⟩ => ⟨S800x160, .f32⟩
  | .hbm, ⟨86, _⟩ => ⟨S800x160, .f32⟩
  | .hbm, ⟨87, _⟩ => ⟨S_, .f32⟩
  | .hbm, ⟨88, _⟩ => ⟨S800x160, .f32⟩
  | .hbm, ⟨89, _⟩ => ⟨S800x160, .f32⟩
  | .hbm, ⟨90, _⟩ => ⟨S800x160, .f32⟩
  | .hbm, ⟨91, _⟩ => ⟨S8x100x160, .f32⟩
  | _, _ => ⟨S8x100x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  shapeCasts_S8x100x81_S800x81 : S8x100x81.ShapeCasts S800x81
  reducesTo_S800x81_S800_d1 : S800x81.ReducesTo [1] S800
  h_S_ : 0 < S_.numel
  bcast_S_S800 : S_.BroadcastsInDim S800 (![] : Fin 0 → Fin S800.rank)
  bcast_S800_S800x1_0 : S800.BroadcastsInDim S800x1 (![0] : Fin 1 → Fin S800x1.rank)
  bcast_S800x1_S800x81_0_1 : S800x1.BroadcastsInDim S800x81 (![0, 1] : Fin 2 → Fin S800x81.rank)
  bcast_S_S160 : S_.BroadcastsInDim S160 (![] : Fin 0 → Fin S160.rank)
  bcast_S160_S160x1_0 : S160.BroadcastsInDim S160x1 (![0] : Fin 1 → Fin S160x1.rank)
  shapeCasts_S8x100x256x256_S800x65536 : S8x100x256x256.ShapeCasts S800x65536
  bcast_S_S800x65536 : S_.BroadcastsInDim S800x65536 (![] : Fin 0 → Fin S800x65536.rank)
  reducesTo_S800x65536_S800_d1 : S800x65536.ReducesTo [1] S800
  transposes_S160x65536_S65536x160_1_0 : S160x65536.Transposes [1, 0] S65536x160
  bcast_S800x1_S800x160_0_1 : S800x1.BroadcastsInDim S800x160 (![0, 1] : Fin 2 → Fin S800x160.rank)
  bcast_S_S800x160 : S_.BroadcastsInDim S800x160 (![] : Fin 0 → Fin S800x160.rank)
  reducesTo_S160x65536_S160_d1 : S160x65536.ReducesTo [1] S160
  bcast_S160_S1x160_1 : S160.BroadcastsInDim S1x160 (![1] : Fin 1 → Fin S1x160.rank)
  bcast_S1x160_S800x160_0_1 : S1x160.BroadcastsInDim S800x160 (![0, 1] : Fin 2 → Fin S800x160.rank)
  shapeCasts_S800x160_S8x100x160 : S800x160.ShapeCasts S8x100x160
  gather_S800x81_S160x1_S800x160_0_1_n_n_1_1_8001_wf : GatherDims.WF S800x81 S160x1 S800x160 [0] [1] [] [1] [] 1 ![800, 1]
  dot_S800x65536_S65536x160_S800x160_1_0_0_1_n_n_wf : DotDims.WF S800x65536 S65536x160 S800x160 [1] [0] [0] [1] [] []

variable [Facts₀]

def gather_S800x81_S160x1_S800x160_0_1_n_n_1_1_8001 : GatherDims S800x81 S160x1 S800x160 where
  offsetDims := [0]
  collapsedSliceDims := [1]
  operandBatchingDims := []
  startIndicesBatchingDims := []
  startIndexMap := [1]
  indexVectorDim := 1
  sliceSizes := ![800, 1]
  wf := gather_S800x81_S160x1_S800x160_0_1_n_n_1_1_8001_wf
def dot_S800x65536_S65536x160_S800x160_1_0_0_1_n_n : DotDims S800x65536 S65536x160 S800x160 where
  lhsContracting := [1]
  rhsContracting := [0]
  lhsNonContracting := [0]
  rhsNonContracting := [1]
  lhsBatch := []
  rhsBatch := []
  wf := dot_S800x65536_S65536x160_S800x160_1_0_0_1_n_n_wf

class Facts : Prop extends Facts₀ where

variable [Facts]
-- ==== Proof.KNames.lean ====
/-
  Names, at their literal types, for the four input blocks a grid point sees and for the four arrays the region
  reads them from.  Grid point t = 16 * n + p (n < 4 the row tile, p < 16 the pixel tile) sees rows
  200 n .. 200 n + 199 of the mask logits and of the class table, and pixels 4096 p .. 4096 p + 4095 of the mask
  logits and of the target masks; the per-target pixel sums are one block for every point.
-/
import proofs.«158816_j41274635715334_1_alg».proof.Proof.Gen.KernelIdeal.Frame

noncomputable section

namespace Cert.KernelIdeal.Names

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The mask-logit block of point t: 200 rows by 4096 pixels. -/
abbrev xblk (c : Dev nD) (t : Fin cfg0.N) : Vec F S200x4096 .f32 := iblk m c 0 t
/-- The target-mask block of point t: all 160 targets by 4096 pixels. -/
abbrev tblk (c : Dev nD) (t : Fin cfg0.N) : Vec F S160x4096 .f32 := iblk m c 1 t
/-- The class-table block of point t: 200 rows by 160 targets. -/
abbrev cblk (c : Dev nD) (t : Fin cfg0.N) : Vec F S200x160 .f32 := iblk m c 2 t
/-- The per-target pixel sums, the same block at every point. -/
abbrev sblk (c : Dev nD) (t : Fin cfg0.N) : Vec F S1x160 .f32 := iblk m c 3 t

/-- The mask logits as the region finds them, [800, 65536]. -/
abbrev xarr (c : Dev nD) : Vec F S800x65536 .f32 := V m c main_v20
/-- The target masks, [160, 65536]. -/
abbrev tarr (c : Dev nD) : Vec F S160x65536 .f32 := V m c main_arg3
/-- The class table, [800, 160]. -/
abbrev carr (c : Dev nD) : Vec F S800x160 .f32 := V m c main_v19
/-- The per-target pixel sums, [1, 160]. -/
abbrev sarr (c : Dev nD) : Vec F S1x160 .f32 := V m c main_v23

end Cert.KernelIdeal.Names

end
-- ==== Proof.KPieces.lean ====
/-
  What one grid point leaves in the four accumulators and in the output block, per control case, as the
  kernel's own arithmetic applied to the point's input blocks and to what the accumulators held before.

  The body resets the four accumulators at the first pixel tile of a row tile (case A), adds the tile's
  contribution to each (every case), and at the last pixel tile (case C) also combines them into the output block.
  So, writing row / sig / cross / num for the four updates:
    case A leaves   update(zero block)          in each accumulator,
    cases B and C   update(previous contents),
    case C's output block is the final combination of the four UPDATED accumulators with the class block and the
    per-target sums.
-/
import proofs.«158816_j41274635715334_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]
variable (c : Dev nD) (i : grid0.Coords) (arg2 : Memref sig .tc .vmem S200x4096 .f32) (harg2 : arg2.IsWhole) (arg3 : Memref sig .tc .vmem S160x4096 .f32) (harg3 : arg3.IsWhole) (arg4 : Memref sig .tc .vmem S200x160 .f32) (harg4 : arg4.IsWhole) (arg5 : Memref sig .tc .vmem S1x160 .f32) (harg5 : arg5.IsWhole) (arg6 : Memref sig .tc .vmem S200x160 .f32) (harg6 : arg6.IsWhole) (arg7 : Memref sig .tc .vmem S200x1 .f32) (harg7 : arg7.IsWhole) (arg8 : Memref sig .tc .vmem S200x1 .f32) (harg8 : arg8.IsWhole) (arg9 : Memref sig .tc .vmem S200x160 .f32) (harg9 : arg9.IsWhole) (arg10 : Memref sig .tc .vmem S200x160 .f32) (harg10 : arg10.IsWhole)

/-- The zero offset of a two-axis block, as the constant function. -/
private theorem hz : (![0, 0] : Fin 2 → Nat) = fun _ => 0 := funext fun a => by fin_cases a <;> rfl

/-!
  How each lemma below goes. A case's contribution to a buffer is a list of stored (rectangle, value) pieces read back
  over arbitrary contents. Every store of this body writes the WHOLE buffer (offset zero, full extent), so the read-back
  is the value of the last store. That value is the kernel's arithmetic applied to loads; each load reads a whole buffer
  too, so it returns either the contents the buffer held on entry, or — when an earlier store of the same run covered the
  buffer — the value that store wrote.
-/

/-! ## Case A: the first pixel tile of a row tile

  Two stores per accumulator: the zero block, then the update; the update's load of the accumulator reads the zero
  block back, so the accumulator ends at update(zero block). -/

theorem sA0 (hc0 : cond0_0 i) (hc1 : ¬cond0_1 i) (x0 : Vec F S200x4096 .f32) (x1 : Vec F S160x4096 .f32) (x2 : Vec F S200x160 .f32) (x3 : Vec F S1x160 .f32) :
    sout0_A_0 c i arg2 harg2 arg3 harg3 arg4 harg4 arg5 harg5 arg6 harg6 arg7 harg7 arg8 harg8 arg9 harg9 arg10 harg10 hc0 hc1 x0 x1 x2 x3 = k0_pay9 x0 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S200x1) hz, View.readCov_unit_zero (S := S200x1) _ hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sA1 (hc0 : cond0_0 i) (hc1 : ¬cond0_1 i) (x0 : Vec F S200x4096 .f32) (x1 : Vec F S160x4096 .f32) (x2 : Vec F S200x160 .f32) (x3 : Vec F S1x160 .f32) :
    sout0_A_1 c i arg2 harg2 arg3 harg3 arg4 harg4 arg5 harg5 arg6 harg6 arg7 harg7 arg8 harg8 arg9 harg9 arg10 harg10 hc0 hc1 x0 x1 x2 x3 = k0_pay11 x0 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S200x1) hz, View.readCov_unit_zero (S := S200x1) _ hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sA2 (hc0 : cond0_0 i) (hc1 : ¬cond0_1 i) (x0 : Vec F S200x4096 .f32) (x1 : Vec F S160x4096 .f32) (x2 : Vec F S200x160 .f32) (x3 : Vec F S1x160 .f32) :
    sout0_A_2 c i arg2 harg2 arg3 harg3 arg4 harg4 arg5 harg5 arg6 harg6 arg7 harg7 arg8 harg8 arg9 harg9 arg10 harg10 hc0 hc1 x0 x1 x2 x3 = k0_pay1 (k0_pay6 (F := F)) (k0_pay14 x0 x1) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S200x160) hz, View.readCov_unit_zero (S := S200x160) _ hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sA3 (hc0 : cond0_0 i) (hc1 : ¬cond0_1 i) (x0 : Vec F S200x4096 .f32) (x1 : Vec F S160x4096 .f32) (x2 : Vec F S200x160 .f32) (x3 : Vec F S1x160 .f32) :
    sout0_A_3 c i arg2 harg2 arg3 harg3 arg4 harg4 arg5 harg5 arg6 harg6 arg7 harg7 arg8 harg8 arg9 harg9 arg10 harg10 hc0 hc1 x0 x1 x2 x3 = k0_pay2 (k0_pay12 x1) (k0_pay13 x0) (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S200x160) hz, View.readCov_unit_zero (S := S200x160) _ hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

/-! ## Case B: a middle pixel tile

  One store per accumulator: the update of what it held on entry. -/

theorem sB0 (hc0 : ¬cond0_0 i) (hc1 : ¬cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = k0_pay9 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sB1 (hc0 : ¬cond0_0 i) (hc1 : ¬cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = k0_pay11 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sB2 (hc0 : ¬cond0_0 i) (hc1 : ¬cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = k0_pay1 xs2 (k0_pay14 x0 x1) := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sB3 (hc0 : ¬cond0_0 i) (hc1 : ¬cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay12 x1) (k0_pay13 x0) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

/-! ## Case C: the last pixel tile

  The accumulators are updated as in case B; the output block's one store then loads the four accumulators back, and each
  of those loads reads the update just stored. -/

theorem sC0 (hc0 : ¬cond0_0 i) (hc1 : cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = k0_pay9 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sC1 (hc0 : ¬cond0_0 i) (hc1 : cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = k0_pay11 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sC2 (hc0 : ¬cond0_0 i) (hc1 : cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = k0_pay1 xs2 (k0_pay14 x0 x1) := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

theorem sC3 (hc0 : ¬cond0_0 i) (hc1 : cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay12 x1) (k0_pay13 x0) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

/-- The output block at the last pixel tile: the final combination of the four updated accumulators, the
    per-target sums and the class block. -/
theorem oC4 (hc0 : ¬cond0_0 i) (hc1 : cond0_1 i) (x0 : Vec F S200x4096 .f32) (x1 : Vec F S160x4096 .f32) (x2 : Vec F S200x160 .f32) (x3 : Vec F S1x160 .f32) (xs0 : Vec F S200x1 .f32) (xs1 : Vec F S200x1 .f32) (xs2 : Vec F S200x160 .f32) (xs3 : Vec F S200x160 .f32) :
    out0_C_4 c i arg2 harg2 arg3 harg3 arg4 harg4 arg5 harg5 arg6 harg6 arg7 harg7 arg8 harg8 arg9 harg9 arg10 harg10 hc0 hc1 x0 x1 x2 x3 xs0 xs1 xs2 xs3
      = k0_pay3 (k0_pay9 x0 xs0) (k0_pay11 x0 xs1) x3 (k0_pay1 xs2 (k0_pay14 x0 x1))
          (k0_pay2 (k0_pay12 x1) (k0_pay13 x0) xs3) x2 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg7.read_unread, harg8.read_unread, harg9.read_unread, harg10.read_unread,
    View.ld_unit_zero (S := S200x4096) hz, View.ld_unit_zero (S := S160x4096) hz, View.ld_unit_zero (S := S200x160) hz,
    View.ld_unit_zero (S := S1x160) hz, View.ld_unit_zero (S := S200x1) hz,
    View.readCov_unit_zero (S := S200x1) _ hz, View.readCov_unit_zero (S := S200x160) _ hz, shapeCast_self]

end Cert.KernelIdeal.Pieces

end
-- ==== Proof.KChain.lean ====
/-
  The four accumulators along one row tile, as a recursion on the pixel tile, and the output block at the row
  tile's last point.

  Within row tile n the sixteen points 16 n + p, p = 0 .. 15, are visited in order. The first resets each
  accumulator to the zero block and applies the tile's update; every later one applies its update to what the
  point before left. So after point 16 n + p each accumulator is the p-fold iterate, from the zero block, of the
  per-tile update over the blocks of points 16 n .. 16 n + p. What the frame records point by point is exactly
  this recursion (by induction on p, one control case per step), and at p = 15 the output block is the final
  combination of the four accumulators as they stand after that last update.
-/
import proofs.«158816_j41274635715334_1_alg».proof.Proof.KNames
import proofs.«158816_j41274635715334_1_alg».proof.Proof.KPieces

noncomputable section

namespace Cert.KernelIdeal.Chain

open Idealize.ShloMosaic Idealize.ShloMosaic.TcCoe Idealize.SL.Sem
open Cert.KernelIdeal Cert.KernelIdeal.Gen Cert.KernelIdeal.Names Cert.KernelIdeal.Pieces

variable {F : FTy → Type} [FloatOps F]
variable (m : (ℓ : Loc nD τ sig) → Buf (Elt F) ℓ)

/-! ## One point -/

/-- A point that opens a row tile leaves the update of the zero blocks. -/
theorem step_first (c : Dev nD) (t : Fin cfg0.N) (h0 : t.val % 16 = 0) (h1 : ¬t.val % 16 = 15) :
    (outsAt0 m c t.val t.isLt).2
      = (k0_pay9 (xblk m c t) (k0_pay4 (F := F)), k0_pay11 (xblk m c t) (k0_pay5 (F := F)),
        k0_pay1 (k0_pay6 (F := F)) (k0_pay14 (xblk m c t) (tblk m c t)),
        k0_pay2 (k0_pay12 (tblk m c t)) (k0_pay13 (xblk m c t)) (k0_pay7 (F := F))) := by
  rw [outsAt0_A m c t h0 h1]
  dsimp only
  rw [sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sA2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sA3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)]

/-- A middle point leaves the update of what the point before left. -/
theorem step_mid (c : Dev nD) (t : Fin cfg0.N) (h0 : ¬t.val % 16 = 0) (h1 : ¬t.val % 16 = 15)
    (a : Vec F S200x1 .f32 × Vec F S200x1 .f32 × Vec F S200x160 .f32 × Vec F S200x160 .f32)
    (hprev : (outsAt0 m c (t.val - 1) (Nat.lt_of_le_of_lt (Nat.sub_le _ _) t.isLt)).2 = a) :
    (outsAt0 m c t.val t.isLt).2
      = (k0_pay9 (xblk m c t) a.1, k0_pay11 (xblk m c t) a.2.1,
        k0_pay1 a.2.2.1 (k0_pay14 (xblk m c t) (tblk m c t)),
        k0_pay2 (k0_pay12 (tblk m c t)) (k0_pay13 (xblk m c t)) a.2.2.2) := by
  rw [outsAt0_B m c t h0 h1]
  dsimp only
  rw [hprev]
  rw [sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) a.1 a.2.1 a.2.2.1 a.2.2.2, sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) a.1 a.2.1 a.2.2.1 a.2.2.2, sB2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) a.1 a.2.1 a.2.2.1 a.2.2.2, sB3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) a.1 a.2.1 a.2.2.1 a.2.2.2]

/-- The last point of a row tile leaves the same update in the accumulators … -/
theorem step_last (c : Dev nD) (t : Fin cfg0.N) (h0 : ¬t.val % 16 = 0) (h1 : t.val % 16 = 15)
    (a : Vec F S200x1 .f32 × Vec F S200x1 .f32 × Vec F S200x160 .f32 × Vec F S200x160 .f32)
    (hprev : (outsAt0 m c (t.val - 1) (Nat.lt_of_le_of_lt (Nat.sub_le _ _) t.isLt)).2 = a) :
    (outsAt0 m c t.val t.isLt).2
      = (k0_pay9 (xblk m c t) a.1, k0_pay11 (xblk m c t) a.2.1,
        k0_pay1 a.2.2.1 (k0_pay14 (xblk m c t) (tblk m c t)),
        k0_pay2 (k0_pay12 (tblk m c t)) (k0_pay13 (xblk m c t)) a.2.2.2) := by
  rw [outsAt0_C m c t h0 h1]
  dsimp only
  rw [hprev]
  rw [sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) a.1 a.2.1 a.2.2.1 a.2.2.2, sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) a.1 a.2.1 a.2.2.1 a.2.2.2, sC2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) a.1 a.2.1 a.2.2.1 a.2.2.2, sC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) a.1 a.2.1 a.2.2.1 a.2.2.2]

/-- … and in the output block the final combination of the four updated accumulators. -/
theorem out_last (c : Dev nD) (t : Fin cfg0.N) (h0 : ¬t.val % 16 = 0) (h1 : t.val % 16 = 15)
    (a : Vec F S200x1 .f32 × Vec F S200x1 .f32 × Vec F S200x160 .f32 × Vec F S200x160 .f32)
    (hprev : (outsAt0 m c (t.val - 1) (Nat.lt_of_le_of_lt (Nat.sub_le _ _) t.isLt)).2 = a) :
    (outsAt0 m c t.val t.isLt).1
      = k0_pay3 (k0_pay9 (xblk m c t) a.1) (k0_pay11 (xblk m c t) a.2.1) (sblk m c t)
          (k0_pay1 a.2.2.1 (k0_pay14 (xblk m c t) (tblk m c t)))
          (k0_pay2 (k0_pay12 (tblk m c t)) (k0_pay13 (xblk m c t)) a.2.2.2) (cblk m c t) := by
  rw [outsAt0_C m c t h0 h1]
  dsimp only
  rw [hprev]
  rw [oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) a.1 a.2.1 a.2.2.1 a.2.2.2]

/-! ## A row tile -/

/-- Grid point 16 n + p: pixel tile p of row tile n. -/
abbrev pt (n p : ℕ) (hn : n < 4) (hp : p < 16) : Fin cfg0.N :=
  ⟨16 * n + p, by rw [show cfg0.N = 64 from N_0]; omega⟩

/-- The four accumulators (row sums of the softplus part, row sums of sigma, logits times transposed targets,
    sigma of logits times transposed targets) after pixel tile p of row tile n. -/
def acc (c : Dev nD) (n : ℕ) (hn : n < 4) : (p : ℕ) → p < 16 → Vec F S200x1 .f32 × Vec F S200x1 .f32 × Vec F S200x160 .f32 × Vec F S200x160 .f32
  | 0, hp =>
    (k0_pay9 (xblk m c (pt n 0 hn hp)) (k0_pay4 (F := F)), k0_pay11 (xblk m c (pt n 0 hn hp)) (k0_pay5 (F := F)),
      k0_pay1 (k0_pay6 (F := F)) (k0_pay14 (xblk m c (pt n 0 hn hp)) (tblk m c (pt n 0 hn hp))),
      k0_pay2 (k0_pay12 (tblk m c (pt n 0 hn hp))) (k0_pay13 (xblk m c (pt n 0 hn hp))) (k0_pay7 (F := F)))
  | p + 1, hp =>
    (k0_pay9 (xblk m c (pt n (p + 1) hn hp)) (acc c n hn p (Nat.lt_of_succ_lt hp)).1,
      k0_pay11 (xblk m c (pt n (p + 1) hn hp)) (acc c n hn p (Nat.lt_of_succ_lt hp)).2.1,
      k0_pay1 (acc c n hn p (Nat.lt_of_succ_lt hp)).2.2.1
        (k0_pay14 (xblk m c (pt n (p + 1) hn hp)) (tblk m c (pt n (p + 1) hn hp))),
      k0_pay2 (k0_pay12 (tblk m c (pt n (p + 1) hn hp))) (k0_pay13 (xblk m c (pt n (p + 1) hn hp)))
        (acc c n hn p (Nat.lt_of_succ_lt hp)).2.2.2)

/-- The recorded contents depend on the position only through its value. -/
theorem outsAt0_congr (c : Dev nD) (a b : ℕ) (h : a = b) (ha : a < cfg0.N) (hb : b < cfg0.N) :
    outsAt0 m c a ha = outsAt0 m c b hb := by
  subst h; rfl

/-- After point 16 n + p the four accumulators are the recursion's. -/
theorem acc_eq (c : Dev nD) (n : ℕ) (hn : n < 4) : ∀ (p : ℕ) (hp : p < 16),
    (outsAt0 m c (pt n p hn hp).val (pt n p hn hp).isLt).2 = acc m c n hn p hp
  | 0, hp => step_first m c (pt n 0 hn hp) (by show (16 * n + 0) % 16 = 0; omega) (by show ¬(16 * n + 0) % 16 = 15; omega)
  | p + 1, hp => by
    have ih := acc_eq c n hn p (Nat.lt_of_succ_lt hp)
    have hprev : (outsAt0 m c ((pt n (p + 1) hn hp).val - 1)
        (Nat.lt_of_le_of_lt (Nat.sub_le _ _) (pt n (p + 1) hn hp).isLt)).2 = acc m c n hn p (Nat.lt_of_succ_lt hp) := by
      rw [outsAt0_congr m c ((pt n (p + 1) hn hp).val - 1) (pt n p hn (Nat.lt_of_succ_lt hp)).val
        (by show 16 * n + (p + 1) - 1 = 16 * n + p; omega) _ (pt n p hn (Nat.lt_of_succ_lt hp)).isLt]
      exact ih
    have h0 : ¬(pt n (p + 1) hn hp).val % 16 = 0 := by show ¬(16 * n + (p + 1)) % 16 = 0; omega
    by_cases h1 : (pt n (p + 1) hn hp).val % 16 = 15
    · exact step_last m c (pt n (p + 1) hn hp) h0 h1 _ hprev
    · exact step_mid m c (pt n (p + 1) hn hp) h0 h1 _ hprev

/-- The output block of row tile n's last point. -/
theorem out_eq (c : Dev nD) (n : ℕ) (hn : n < 4) :
    (outsAt0 m c (pt n 15 hn (by omega)).val (pt n 15 hn (by omega)).isLt).1
      = k0_pay3 (acc m c n hn 15 (by omega)).1 (acc m c n hn 15 (by omega)).2.1 (sblk m c (pt n 15 hn (by omega)))
          (acc m c n hn 15 (by omega)).2.2.1 (acc m c n hn 15 (by omega)).2.2.2 (cblk m c (pt n 15 hn (by omega))) := by
  have ih := acc_eq m c n hn 14 (by omega)
  have hprev : (outsAt0 m c ((pt n 15 hn (by omega)).val - 1)
      (Nat.lt_of_le_of_lt (Nat.sub_le _ _) (pt n 15 hn (by omega)).isLt)).2 = acc m c n hn 14 (by omega) := by
    rw [outsAt0_congr m c ((pt n 15 hn (by omega)).val - 1) (pt n 14 hn (by omega)).val
      (by show 16 * n + 15 - 1 = 16 * n + 14; omega) _ (pt n 14 hn (by omega)).isLt]
    exact ih
  exact out_last m c (pt n 15 hn (by omega)) (by show ¬(16 * n + 15) % 16 = 0; omega) (by show (16 * n + 15) % 16 = 15; omega) _ hprev

end Cert.KernelIdeal.Chain

end
-- ==== Proof.Spec.lean ====
/-
  The pairwise matching cost between 800 predictions and 160 targets over 65536 pixels, as ONE function of its
  ingredients, on the extended reals.

  For prediction row R and target j, with x the mask logits [800, 65536], t the target masks [160, 65536] and
  cls the (already negated) class-probability table [800, 160]:

      cost[R, j] = 1 * cls[R, j]
                 + 1 * ((sum_k softplus-part(x[R,k])  -  sum_k x[R,k] * t[j,k]) * 2^-16)
                 + 1 * (1 - (2 * sum_k sigma(x[R,k]) * t[j,k] + 1) / ((sum_k sigma(x[R,k]) + sum_k t[j,k]) + 1))

  where softplus-part(x) = max(x, 0) + log(1 + e^(-|x|)) and sigma(x) = 1 / (1 + e^(-x)).  The sums over the
  65536 pixels are written over `Finset.range` of a column function that is zero past the array's end, so that a
  running sum over the first n pixels is the same expression at a smaller n: a tile-by-tile accumulation over the
  pixel axis is then `Finset.sum_range_add`, one tile at a time.  Dividing by 65536 and multiplying by 2^-16 are
  one operation on every extended real (`scale_eq`).
-/
import Idealize.ShloMosaic.PureOps.Ideal
import Idealize.ShloMosaic.PureOps.Ideal.Laws
import Idealize.ShloMosaic.Lib.ValueIdx

noncomputable section

open scoped BigOperators

namespace Cert.CostSpec

open Idealize.ShloMosaic Idealize.ShloMosaic.ValueIdx

/-! ## The four constants the two programs spell -/

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_65536 : Ideal.ofBits .f32 0x47800000#32 = ((65536 : ℝ) : EReal) := by
  simp [Ideal.ofBits, Ideal.ieee, -EReal.coe_mul]; norm_num

theorem ofBits_inv65536 : Ideal.ofBits .f32 0x37800000#32 = ((1 / 65536 : ℝ) : EReal) := by
  simp [Ideal.ofBits, Ideal.ieee, -EReal.coe_mul]; norm_num

/-- Dividing by 65536 is multiplying by 2^-16, on every extended real. -/
theorem scale_eq (a : EReal) :
    Ideal.div a (Ideal.ofBits .f32 0x47800000#32) = a * Ideal.ofBits .f32 0x37800000#32 := by
  rw [ofBits_65536, ofBits_inv65536, Ideal.div_coe (by norm_num : (65536 : ℝ) ≠ 0)]

/-! ## The pointwise parts -/

/-- max(x, 0) + log(1 + e^(-|x|)), with |x| = max(x, -x). -/
def pos (x : EReal) : EReal := max x 0 + Ideal.log1p (Ideal.exp (-(max x (-x))))

/-- 1 / (1 + e^(-x)). -/
def sig (x : EReal) : EReal := Ideal.logistic x

/-! ## Rows of the two big arrays as functions of a natural column -/

abbrev SX : Shape := ⟨2, ![800, 65536]⟩
abbrev ST : Shape := ⟨2, ![160, 65536]⟩
abbrev SC : Shape := ⟨2, ![800, 160]⟩

/-- Row R of x at column k; zero past the end. -/
def colX (x : SX.Idx → EReal) (R : Fin 800) (k : ℕ) : EReal :=
  if h : k < 65536 then x (ix2 R ⟨k, h⟩) else 0

/-- Row j of t at column k; zero past the end. -/
def colT (t : ST.Idx → EReal) (j : Fin 160) (k : ℕ) : EReal :=
  if h : k < 65536 then t (ix2 j ⟨k, h⟩) else 0

theorem colX_fin (x : SX.Idx → EReal) (R : Fin 800) (k : Fin 65536) : colX x R k.val = x (ix2 R k) := by
  unfold colX; rw [dif_pos k.isLt]

theorem colT_fin (t : ST.Idx → EReal) (j : Fin 160) (k : Fin 65536) : colT t j k.val = t (ix2 j k) := by
  unfold colT; rw [dif_pos k.isLt]

/-! ## The running sums over the first n pixels -/

def rowPos (x : SX.Idx → EReal) (R : Fin 800) (n : ℕ) : EReal := ∑ k ∈ Finset.range n, pos (colX x R k)
def rowSig (x : SX.Idx → EReal) (R : Fin 800) (n : ℕ) : EReal := ∑ k ∈ Finset.range n, sig (colX x R k)
def cross (x : SX.Idx → EReal) (t : ST.Idx → EReal) (R : Fin 800) (j : Fin 160) (n : ℕ) : EReal :=
  ∑ k ∈ Finset.range n, colX x R k * colT t j k
def num (x : SX.Idx → EReal) (t : ST.Idx → EReal) (R : Fin 800) (j : Fin 160) (n : ℕ) : EReal :=
  ∑ k ∈ Finset.range n, sig (colX x R k) * colT t j k
def tsum (t : ST.Idx → EReal) (j : Fin 160) : EReal := ∑ k ∈ Finset.range 65536, colT t j k

/-- A sum over all 65536 pixels, indexed by `Fin`, is the range sum of the column function. -/
theorem sum_fin_eq_range (f : ℕ → EReal) : ∑ k : Fin 65536, f k.val = ∑ k ∈ Finset.range 65536, f k :=
  (Finset.sum_range f).symm

/-! ## The combination -/

/-- The three weighted terms from the six numbers that enter them. -/
def combine (c row cr ss nm ts : EReal) : EReal :=
  (1 * c + 1 * ((row - cr) * Ideal.ofBits .f32 0x37800000#32))
    + 1 * (1 - Ideal.div (((2 : ℝ) : EReal) * nm + 1) ((ss + ts) + 1))

/-- The cost matrix. -/
def G (cls : SC.Idx → EReal) (x : SX.Idx → EReal) (t : ST.Idx → EReal) : SC.Idx → EReal := fun i =>
  combine (cls i) (rowPos x (i 0) 65536) (cross x t (i 0) (i 1) 65536) (rowSig x (i 0) 65536)
    (num x t (i 0) (i 1) 65536) (tsum t (i 1))

end Cert.CostSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.LibDotNT.lean ====
/-
  Three small facts about arrays read at an index, general in the sizes.

  Columns: a vector of length a recast as the column [a, 1] reads the vector, and a column [a, 1] broadcast
  to [a, b] reads the column's entry of the row, whatever the column.
  Row sums: at the ideal instance (floats are the extended reals) the sum-reduction of an [M, K] matrix over its
  axis 1, started from the zero word, is at row r the plain sum over k of the entries (r, k).
  A product with the right operand read transposed: [M, K] by [N, K], both contracting their axis 1,
  accumulated into the all-zero array, is at (p, q) the sum over k of l[p, k] * r[q, k] — no rounding and no order
  of summation left in it. The contraction index set of a product with one contracted axis is a rank-1 index set;
  re-indexed by its coordinate the sum runs over Fin K.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Idealize.ShloMosaic.DotNT

open Idealize.ShloMosaic Idealize.ShloMosaic.ValueIdx

/-! ## Columns: a vector stood up as a column, and a column spread over the columns of a matrix -/

section Columns
variable {α : Type}

/-- A vector of length `a` recast as the column `[a, 1]` reads, at `(i, u)`, the vector at `i`: both have
    row-major position `i`, the unit coordinate `u` being `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A sum along the rows of a matrix -/

/-- The sum-reduction of an `[M, K]` matrix over its axis 1, started from the zero word, is at row `r`
    the sum over `k : Fin K` of the entries `(r, k)`: the reduced index with the coordinate `k` put back
    on axis 1 is `(r, k)`. -/
theorem rowSum_apply {M K : ℕ} (v : FVec Ideal ⟨2, ![M, K]⟩ .f32)
    (h : (⟨2, ![M, K]⟩ : Shape).Reduces [1] ⟨1, ![M]⟩)
    (hacc : (0x00000000#32 : BitVec 32) = 0x00000000#32) (r : Fin M) :
    multiReduction .add [1] ⟨1, ![M]⟩ v 0x00000000#32 h (.inl rfl) hacc (ix1 r) = ∑ k : Fin K, v (ix2 r k) := by
  refine (Ideal.multiReduction_add_single v _ h (.inl rfl) hacc (ix1 r)).trans ?_
  refine Finset.sum_congr rfl fun k _ => congrArg v ?_
  funext a; apply Fin.ext
  match a with
  | ⟨0, _⟩ => rfl
  | ⟨1, _⟩ => rfl

/-! ## `[M, K] × [N, K] → [M, N]`, both operands contracting their axis 1 -/

/-- [M,K] x [N,K] -> [M,N], contracting axis 1 of both (the right operand read transposed): the result's
    axis 0 is the left operand's axis 0 and its axis 1 the right operand's axis 0. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section NT
variable {M K N : Nat}
  (wf : DotDims.WF ⟨2, ![M, K]⟩ ⟨2, ![N, K]⟩ ⟨2, ![M, N]⟩ [1] [1] [0] [0] [] [])

/-- The left operand's axis 0 is free: its coordinate is the result's row, whatever the contraction index. -/
private theorem nt_lhs0 (j : (⟨2, ![M, N]⟩ : Shape).Idx) (k : (ntDims M K N wf).contr.Idx) :
    ((ntDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is contracted: at the contraction index of coordinate `c` it reads `c`. -/
private theorem nt_lhs1 (j : (⟨2, ![M, N]⟩ : Shape).Idx) (c : Fin K) :
    ((ntDims M K N wf).lhsIdx j ((contrEquiv1 (ntDims M K N wf) K rfl rfl).symm c) 1).val = c.val := by
  rw [(ntDims M K N wf).lhsIdx_val_of_single rfl]
  exact contrEquiv1_symm_val (ntDims M K N wf) K rfl rfl c

/-- The right operand's axis 0 is free: its coordinate is the result's column, whatever the contraction
    index. -/
private theorem nt_rhs0 (j : (⟨2, ![M, N]⟩ : Shape).Idx) (k : (ntDims M K N wf).contr.Idx) :
    ((ntDims M K N wf).rhsIdx j k 0).val = (j 1).val := by
  unfold DotDims.rhsIdx
  rw [dif_neg (show (0 : Fin 2) ∉ ([] : List (Fin 2)) by decide),
    dif_pos (show (0 : Fin 2) ∈ [(0 : Fin 2)] by decide)]
  rfl

/-- The right operand's axis 1 is contracted: at the contraction index of coordinate `c` it reads `c`. -/
private theorem nt_rhs1 (j : (⟨2, ![M, N]⟩ : Shape).Idx) (c : Fin K) :
    ((ntDims M K N wf).rhsIdx j ((contrEquiv1 (ntDims M K N wf) K rfl rfl).symm c) 1).val = c.val := by
  rw [(ntDims M K N wf).rhsIdx_val_of_single rfl]
  exact contrEquiv1_symm_val (ntDims M K N wf) K rfl rfl c

/-- The contraction's sum at `(p, q)`, over the contraction index set and through the operand index maps,
    is the sum over the contracted coordinate `k : Fin K` of `l[p, k] * r[q, k]`. -/
theorem nt_sum (l : (⟨2, ![M, K]⟩ : Shape).Idx → EReal) (r : (⟨2, ![N, K]⟩ : Shape).Idx → EReal)
    (p : Fin M) (q : Fin N) :
    ∑ k : (ntDims M K N wf).contr.Idx,
        l ((ntDims M K N wf).lhsIdx (ix2 p q) k) * r ((ntDims M K N wf).rhsIdx (ix2 p q) k)
      = ∑ k : Fin K, l (ix2 p k) * r (ix2 q k) := by
  rw [← Equiv.sum_comp (contrEquiv1 (ntDims M K N wf) K rfl rfl).symm]
  refine Finset.sum_congr rfl fun c _ => ?_
  have hl : (ntDims M K N wf).lhsIdx (ix2 p q) ((contrEquiv1 (ntDims M K N wf) K rfl rfl).symm c)
      = ix2 p c := by
    funext a; apply Fin.ext
    match a with
    | ⟨0, _⟩ => exact nt_lhs0 wf (ix2 p q) _
    | ⟨1, _⟩ => exact nt_lhs1 wf (ix2 p q) c
  have hr : (ntDims M K N wf).rhsIdx (ix2 p q) ((contrEquiv1 (ntDims M K N wf) K rfl rfl).symm c)
      = ix2 q c := by
    funext a; apply Fin.ext
    match a with
    | ⟨0, _⟩ => exact nt_rhs0 wf (ix2 p q) _
    | ⟨1, _⟩ => exact nt_rhs1 wf (ix2 p q) c
  rw [hl, hr]

end NT

/-- The accelerator's product of `[M, K]` by `[N, K]` (the right operand read transposed) accumulated into
    the all-zero array, at `(p, q)`: `∑ k, l[p, k] * r[q, k]` in the extended reals. -/
theorem matmul_zero_nt_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (ntDims M K N wf) prec l r (constant ⟨2, ![M, N]⟩ .f32 0x00000000#32) (ix2 p q)
      = ∑ k : Fin K, l (ix2 p k) * r (ix2 q k) := by
  rw [Ideal.matmul_constant_zero_apply]
  exact nt_sum wf l r p q

end Idealize.ShloMosaic.DotNT

end
-- ==== Proof.KPay.lean ====
/-
  The kernel's arithmetic read at one index, on the extended reals.

  At row r of the block (and target j) each per-tile update adds to what the accumulator held the tile's
  contribution: the sum over the tile's 4096 pixels of the softplus part of x, of sigma(x), of x * t, of
  sigma(x) * t (a change of float format is the identity here, the lane reduction and the product into a zero
  accumulator are plain sums, and the reduction's zero start value adds nothing); the zero blocks are zero; and the
  final combination is the cost's three weighted terms of the six numbers at that row and target.
-/
import proofs.«158816_j41274635715334_1_alg».proof.Proof.Gen.KernelIdeal.Skeleton
import proofs.«158816_j41274635715334_1_alg».proof.Proof.Spec
import proofs.«158816_j41274635715334_1_alg».proof.Proof.LibDot2
import proofs.«158816_j41274635715334_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen
open Idealize.ShloMosaic.DotNT

/-- The program's dimension numbers are these. -/
theorem dot_eq_ntDims : dot_S200x4096_S160x4096_S200x160_1_1_0_0_n_n
    = ntDims 200 4096 160 dot_S200x4096_S160x4096_S200x160_1_1_0_0_n_n_wf := rfl

/-- The program's product into the zero block, at `(r, j)`: `∑ k, l[r, k] * t[j, k]` over the tile's 4096
    pixels. -/
theorem tileDot_apply {φ₁ φ₂ : FTy} (l : FVec Ideal S200x4096 φ₁) (t : FVec Ideal S160x4096 φ₂)
    (r : Fin 200) (j : Fin 160) :
    matmul dot_S200x4096_S160x4096_S200x160_1_1_0_0_n_n none l t (constant (F := Ideal) S200x160 .f32 0x00000000#32)
        (ix2 r j)
      = ∑ k : Fin 4096, l (ix2 r k) * t (ix2 j k) :=
  matmul_zero_nt_apply dot_S200x4096_S160x4096_S200x160_1_1_0_0_n_n_wf none l t r j

/-! ## The zero blocks -/

theorem pay4_apply (y : S200x1.Idx) : (k0_pay4 (F := Ideal)) y = 0 := by
  unfold k0_pay4
  simp only [shapeCast_self]
  exact Ideal.ofBits_zero_f32
theorem pay5_apply (y : S200x1.Idx) : (k0_pay5 (F := Ideal)) y = 0 := by
  unfold k0_pay5
  simp only [shapeCast_self]
  exact Ideal.ofBits_zero_f32
theorem pay6_apply (y : S200x160.Idx) : (k0_pay6 (F := Ideal)) y = 0 := by
  unfold k0_pay6
  simp only [shapeCast_self]
  exact Ideal.ofBits_zero_f32
theorem pay7_apply (y : S200x160.Idx) : (k0_pay7 (F := Ideal)) y = 0 := by
  unfold k0_pay7
  simp only [shapeCast_self]
  exact Ideal.ofBits_zero_f32

/-! ## The four updates -/

/-- Row sums of the softplus part. -/
theorem row_apply (X : Vec Ideal S200x4096 .f32) (a : Vec Ideal S200x1 .f32) (r : Fin 200) :
    k0_pay9 (F := Ideal) X a (ix2 r (0 : Fin 1))
      = a (ix2 r (0 : Fin 1)) + ∑ k : Fin 4096, Cert.CostSpec.pos (X (ix2 r k)) := by
  unfold k0_pay9 k0_pay8
  simp only [shapeCast_self]
  refine (addf_apply _ _ _).trans ?_
  refine congrArg (a (ix2 r (0 : Fin 1)) + ·) ?_
  refine (shapeCast_a_a1_apply _ _ r (0 : Fin 1)).trans ?_
  refine (rowSum_apply _ _ _ r).trans ?_
  refine Finset.sum_congr rfl fun k _ => ?_
  show max (X (ix2 r k)) (Ideal.ofBits .f32 0x00000000#32)
      + Ideal.log1p (Ideal.exp (Ideal.ofBits .f32 0x00000000#32 - max (X (ix2 r k)) (-(X (ix2 r k))))) = _
  rw [Ideal.ofBits_zero_f32, zero_sub]
  rfl

/-- Row sums of sigma. -/
theorem sig_apply (X : Vec Ideal S200x4096 .f32) (a : Vec Ideal S200x1 .f32) (r : Fin 200) :
    k0_pay11 (F := Ideal) X a (ix2 r (0 : Fin 1))
      = a (ix2 r (0 : Fin 1)) + ∑ k : Fin 4096, Cert.CostSpec.sig (X (ix2 r k)) := by
  unfold k0_pay11 k0_pay10 k0_pay8
  simp only [shapeCast_self]
  refine (addf_apply _ _ _).trans ?_
  refine congrArg (a (ix2 r (0 : Fin 1)) + ·) ?_
  refine (shapeCast_a_a1_apply _ _ r (0 : Fin 1)).trans ?_
  refine (rowSum_apply _ _ _ r).trans ?_
  rfl

/-- x times t transposed, one pixel tile. -/
theorem cross_apply (X : Vec Ideal S200x4096 .f32) (Tb : Vec Ideal S160x4096 .f32) (a : Vec Ideal S200x160 .f32)
    (r : Fin 200) (j : Fin 160) :
    k0_pay1 (F := Ideal) a (k0_pay14 X Tb) (ix2 r j)
      = a (ix2 r j) + ∑ k : Fin 4096, X (ix2 r k) * Tb (ix2 j k) := by
  unfold k0_pay1 k0_pay14 k0_pay12 k0_pay8
  simp only [shapeCast_self]
  refine (addf_apply _ _ _).trans ?_
  refine congrArg (a (ix2 r j) + ·) ?_
  refine (tileDot_apply _ _ r j).trans ?_
  rfl

/-- sigma(x) times t transposed, one pixel tile. -/
theorem num_apply (X : Vec Ideal S200x4096 .f32) (Tb : Vec Ideal S160x4096 .f32) (a : Vec Ideal S200x160 .f32)
    (r : Fin 200) (j : Fin 160) :
    k0_pay2 (F := Ideal) (k0_pay12 Tb) (k0_pay13 X) a (ix2 r j)
      = a (ix2 r j) + ∑ k : Fin 4096, Cert.CostSpec.sig (X (ix2 r k)) * Tb (ix2 j k) := by
  unfold k0_pay2 k0_pay13 k0_pay12 k0_pay10 k0_pay8
  simp only [shapeCast_self]
  refine (addf_apply _ _ _).trans ?_
  refine congrArg (a (ix2 r j) + ·) ?_
  refine (tileDot_apply _ _ r j).trans ?_
  rfl

/-! ## The final combination -/

theorem out_apply (a b : Vec Ideal S200x1 .f32) (ts : Vec Ideal S1x160 .f32) (cr nm cl : Vec Ideal S200x160 .f32)
    (r : Fin 200) (j : Fin 160) :
    k0_pay3 (F := Ideal) a b ts cr nm cl (ix2 r j)
      = Cert.CostSpec.combine (cl (ix2 r j)) (a (ix2 r (0 : Fin 1))) (cr (ix2 r j)) (b (ix2 r (0 : Fin 1)))
          (nm (ix2 r j)) (ts (ix2 (0 : Fin 1) j)) := by
  unfold k0_pay3
  simp only [shapeCast_self]
  show (Ideal.ofBits .f32 0x3F800000#32 * cl (ix2 r j)
        + Ideal.ofBits .f32 0x3F800000#32
            * ((broadcastTo S200x160 a broadcasts_S200x1_S200x160 (ix2 r j) - cr (ix2 r j))
                * Ideal.ofBits .f32 0x37800000#32))
      + Ideal.ofBits .f32 0x3F800000#32
          * (Ideal.ofBits .f32 0x3F800000#32
              - Ideal.div (Ideal.ofBits .f32 0x40000000#32 * nm (ix2 r j) + Ideal.ofBits .f32 0x3F800000#32)
                  ((broadcastTo S200x160 b broadcasts_S200x1_S200x160 (ix2 r j)
                      + broadcastTo S200x160 ts broadcasts_S1x160_S200x160 (ix2 r j))
                    + Ideal.ofBits .f32 0x3F800000#32)) = _
  rw [broadcastTo_a1_ab_apply a _ r j, broadcastTo_a1_ab_apply b _ r j, broadcastTo_1b_ab_apply ts _ r j,
    Cert.CostSpec.ofBits_one, Cert.CostSpec.ofBits_two]
  rfl

end Cert.KernelIdeal.Pay

end
-- ==== Proof.KHost.lean ====
/-
  What the kernel region reads: each input block at an index is the array the region finds at the block's place,
  and the one array the host prefix computes for the dice term, the per-target pixel sums, read at a target.

  Point t = 16 n + p reads row 200 n + r and pixel 4096 p + k of the [800, 65536] mask logits at (r, k) of its
  first block, target j and pixel 4096 p + k of the [160, 65536] target masks at (j, k) of its second, row
  200 n + r of the class table at (r, j) of its third, and the whole [1, 160] array of pixel sums as its fourth.
-/
import proofs.«158816_j41274635715334_1_alg».proof.Proof.KNames
import proofs.«158816_j41274635715334_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

open scoped BigOperators

namespace Cert.KernelIdeal.HostSide

open Idealize.ShloMosaic Idealize.ShloMosaic.TcCoe Idealize.SL.Sem Idealize.ShloMosaic.ValueIdx
open Cert.KernelIdeal Cert.KernelIdeal.Gen Cert.KernelIdeal.Names

variable {F : FTy → Type} [FloatOps F]
variable (m : (ℓ : Loc nD τ sig) → Buf (Elt F) ℓ)

/-- Row 200 n + r of an 800-row array, n the row tile of point t. -/
abbrev rowOf (t : Fin cfg0.N) (r : Fin 200) : Fin 800 :=
  ⟨200 * (t.val / 16) + r.val, by have := t.isLt; have hN : cfg0.N = 64 := N_0; have := r.isLt; omega⟩
/-- Pixel 4096 p + k, p the pixel tile of point t. -/
abbrev pixOf (t : Fin cfg0.N) (k : Fin 4096) : Fin 65536 :=
  ⟨4096 * (t.val % 16) + k.val, by have := k.isLt; omega⟩

/-- The index maps of the four input windows over the grid: window 0 is at block (t / 16, t % 16), window 1 at
    (0, t % 16), window 2 at (t / 16, 0), window 3 at (0, 0). -/
theorem idx_x : ∀ t : Fin cfg0.N, win0_0.index t (0 : Fin 2) = t.val / 16 ∧ win0_0.index t (1 : Fin 2) = t.val % 16 :=
  (by decide +kernel : ∀ t : Fin grid0.N, _)
theorem idx_t : ∀ t : Fin cfg0.N, win0_1.index t (0 : Fin 2) = 0 ∧ win0_1.index t (1 : Fin 2) = t.val % 16 :=
  (by decide +kernel : ∀ t : Fin grid0.N, _)
theorem idx_c : ∀ t : Fin cfg0.N, win0_2.index t (0 : Fin 2) = t.val / 16 ∧ win0_2.index t (1 : Fin 2) = 0 :=
  (by decide +kernel : ∀ t : Fin grid0.N, _)
theorem idx_s : ∀ t : Fin cfg0.N, win0_3.index t (0 : Fin 2) = 0 ∧ win0_3.index t (1 : Fin 2) = 0 :=
  (by decide +kernel : ∀ t : Fin grid0.N, _)

theorem xblk_apply (c : Dev nD) (t : Fin cfg0.N) (r : Fin 200) (k : Fin 4096) :
    xblk m c t (ix2 r k) = xarr m c (ix2 (rowOf t r) (pixOf t k)) := by
  show iblk m c 0 t (ix2 r k) = _
  unfold iblk
  rw [View.read_apply]
  show V m c main_v20 _ = V m c main_v20 _
  congr 1
  funext a
  apply Fin.ext
  match a with
  | ⟨0, _⟩ => show win0_0.index t 0 * 200 + 1 * r.val = 200 * (t.val / 16) + r.val; rw [(idx_x t).1]; omega
  | ⟨1, _⟩ => show win0_0.index t 1 * 4096 + 1 * k.val = 4096 * (t.val % 16) + k.val; rw [(idx_x t).2]; omega

theorem tblk_apply (c : Dev nD) (t : Fin cfg0.N) (j : Fin 160) (k : Fin 4096) :
    tblk m c t (ix2 j k) = tarr m c (ix2 j (pixOf t k)) := by
  show iblk m c 1 t (ix2 j k) = _
  unfold iblk
  rw [View.read_apply]
  show V m c main_arg3 _ = V m c main_arg3 _
  congr 1
  funext a
  apply Fin.ext
  match a with
  | ⟨0, _⟩ => show win0_1.index t 0 * 160 + 1 * j.val = j.val; rw [(idx_t t).1]; omega
  | ⟨1, _⟩ => show win0_1.index t 1 * 4096 + 1 * k.val = 4096 * (t.val % 16) + k.val; rw [(idx_t t).2]; omega

theorem cblk_apply (c : Dev nD) (t : Fin cfg0.N) (r : Fin 200) (j : Fin 160) :
    cblk m c t (ix2 r j) = carr m c (ix2 (rowOf t r) j) := by
  show iblk m c 2 t (ix2 r j) = _
  unfold iblk
  rw [View.read_apply]
  show V m c main_v19 _ = V m c main_v19 _
  congr 1
  funext a
  apply Fin.ext
  match a with
  | ⟨0, _⟩ => show win0_2.index t 0 * 200 + 1 * r.val = 200 * (t.val / 16) + r.val; rw [(idx_c t).1]; omega
  | ⟨1, _⟩ => show win0_2.index t 1 * 160 + 1 * j.val = j.val; rw [(idx_c t).2]; omega

theorem sblk_apply (c : Dev nD) (t : Fin cfg0.N) (j : Fin 160) :
    sblk m c t (ix2 (0 : Fin 1) j) = sarr m c (ix2 (0 : Fin 1) j) := by
  show iblk m c 3 t (ix2 (0 : Fin 1) j) = _
  unfold iblk
  rw [View.read_apply]
  show V m c main_v23 _ = V m c main_v23 _
  congr 1
  funext a
  apply Fin.ext
  match a with
  | ⟨0, _⟩ => show win0_3.index t 0 * 1 + 1 * (0 : Fin 1).val = (0 : Fin 1).val; rw [(idx_s t).1]; rfl
  | ⟨1, _⟩ => show win0_3.index t 1 * 160 + 1 * j.val = j.val; rw [(idx_s t).2]; omega

/-- The mask logits the region finds are the argument, reshaped. -/
theorem xarr_eq (c : Dev nD) :
    xarr m c = shapeCast S800x65536 (m ((c : Thread nD τ).loc main_arg1)) shapeCasts_S8x100x256x256_S800x65536 := by
  show StableHlo.after hostOps0 (fun b => m (c, b)) (Proc.devRef .tc main_v20) = _
  after_results
  rfl

/-- The target masks the region finds are the argument. -/
theorem tarr_eq (c : Dev nD) : tarr m c = m ((c : Thread nD τ).loc main_arg3) := V_main_arg3 m c

/-- Reading the [1, 160] reshape of the [160, 1] broadcast of a 160-vector at (0, j) reads the vector at j: both
    positions are j in row-major order, and the broadcast copies coordinate 0. -/
theorem row_read {α : Type} (y : S160.Idx → α) (j : Fin 160) :
    shapeCast S1x160 (broadcastInDim S160x1 ![0] bcast_S160_S160x1_0 y) shapeCasts_S160x1_S1x160 (ix2 (0 : Fin 1) j)
      = y (ix1 j) := by
  refine (shapeCast_apply _ shapeCasts_S160x1_S1x160 (ix2 (0 : Fin 1) j) (ix2 j (0 : Fin 1)) (by
    rw [Shape.rowMajor_val_two, Shape.rowMajor_val_two]; show j.val * 1 + 0 = 0 * 160 + j.val; omega)).trans ?_
  exact broadcastInDim_apply ![0] bcast_S160_S160x1_0 y (ix2 j (0 : Fin 1)) (ix1 j) (by
    intro a
    match a with
    | ⟨0, _⟩ => rfl)

/-- Dropping the pixel axis of [160, 65536] leaves [160]. -/
theorem pix_reduces : S160x65536.Reduces [1] S160 := by decide

/-- The host's sum over the pixel axis from a zero start, at target j, is the sum over the 65536 pixels of row j. -/
theorem sum_read (x : S160x65536.Idx → EReal) (j : Fin 160) :
    Ideal.hostReduceAdd reducesTo_S160x65536_S160_d1 x 0 (ix1 j) = ∑ k : Fin 65536, x (ix2 j k) := by
  rw [Ideal.hostReduceAdd_single reducesTo_S160x65536_S160_d1 pix_reduces, zero_add]
  show ∑ k : Fin 65536, x (pix_reduces.lift (ix1 j) k) = _
  refine Finset.sum_congr rfl fun k _ => congrArg x (funext fun a => Fin.ext ?_)
  match a with
  | ⟨0, _⟩ => rfl
  | ⟨1, _⟩ => rfl

/-- The per-target pixel sums the host prefix computes, at target j, on the extended reals. -/
theorem sarr_apply (m : (ℓ : Loc nD τ sig) → Buf (Elt Ideal) ℓ) (c : Dev nD) (j : Fin 160) :
    sarr m c (ix2 (0 : Fin 1) j) = Cert.CostSpec.tsum (tarr m c) j := by
  have e : sarr m c = shapeCast S1x160 (broadcastInDim S160x1 ![0] bcast_S160_S160x1_0
      (Host.reduceAdd (tarr m c) (constant S_ .f32 0x00000000#32) reducesTo_S160x65536_S160_d1 h_S_))
      shapeCasts_S160x1_S1x160 := by
    rw [tarr_eq]
    show StableHlo.after hostOps0 (fun b => m (c, b)) (Proc.devRef .tc main_v23) = _
    after_results
    rfl
  rw [e, row_read, hostReduceAdd_apply, constant_apply, Ideal.ofBits_zero_f32, sum_read]
  unfold Cert.CostSpec.tsum
  rw [← Cert.CostSpec.sum_fin_eq_range]
  exact Finset.sum_congr rfl fun k _ => (Cert.CostSpec.colT_fin _ j k).symm

end Cert.KernelIdeal.HostSide

end
-- ==== Proof.KAccum.lean ====
/-
  The accumulators and the output block, read at one row and one target, on the extended reals.

  After pixel tile p of row tile n, at row r of the block (row R = 200 n + r of the arrays) and target j, the four
  accumulators hold the running sums over the first 4096 (p + 1) pixels: of the softplus part of x[R, .], of
  sigma(x[R, .]), of x[R, .] * t[j, .] and of sigma(x[R, .]) * t[j, .]. The first tile starts from the zero blocks
  (0 + the tile's sum); each later tile adds its own 4096 terms, which are the next 4096 terms of the running sum.
  After the sixteenth tile the sums run over all 65536 pixels, and the output block at (r, j) is the cost at (R, j).
-/
import proofs.«158816_j41274635715334_1_alg».proof.Proof.KChain
import proofs.«158816_j41274635715334_1_alg».proof.Proof.KPay
import proofs.«158816_j41274635715334_1_alg».proof.Proof.KHost
import proofs.«158816_j41274635715334_1_alg».proof.Proof.Spec

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Names Cert.KernelIdeal.Chain Cert.KernelIdeal.Pay
open Cert.KernelIdeal.HostSide

variable (m : (ℓ : Loc nD τ sig) → Buf (Elt Ideal) ℓ)

/-- Row 200 n + r of the arrays: row r of row tile n. -/
abbrev rowAt (n : ℕ) (hn : n < 4) (r : Fin 200) : Fin 800 := ⟨200 * n + r.val, by have := r.isLt; omega⟩

theorem rowOf_pt (n p : ℕ) (hn : n < 4) (hp : p < 16) (r : Fin 200) : rowOf (pt n p hn hp) r = rowAt n hn r :=
  Fin.ext (by show 200 * ((16 * n + p) / 16) + r.val = 200 * n + r.val; omega)

theorem pixOf_pt (n p : ℕ) (hn : n < 4) (hp : p < 16) (k : Fin 4096) :
    pixOf (pt n p hn hp) k = ⟨4096 * p + k.val, by have := k.isLt; omega⟩ :=
  Fin.ext (by show 4096 * ((16 * n + p) % 16) + k.val = 4096 * p + k.val; omega)

/-- The logits block of point 16 n + p at (r, k) is column 4096 p + k of row 200 n + r. -/
theorem xblk_col (c : Dev nD) (n p : ℕ) (hn : n < 4) (hp : p < 16) (r : Fin 200) (k : Fin 4096) :
    xblk m c (pt n p hn hp) (ix2 r k) = Cert.CostSpec.colX (xarr m c) (rowAt n hn r) (4096 * p + k.val) := by
  rw [xblk_apply, rowOf_pt, pixOf_pt]
  unfold Cert.CostSpec.colX
  rw [dif_pos (by have := k.isLt; omega)]

/-- The target block of point 16 n + p at (j, k) is column 4096 p + k of row j. -/
theorem tblk_col (c : Dev nD) (n p : ℕ) (hn : n < 4) (hp : p < 16) (j : Fin 160) (k : Fin 4096) :
    tblk m c (pt n p hn hp) (ix2 j k) = Cert.CostSpec.colT (tarr m c) j (4096 * p + k.val) := by
  rw [tblk_apply, pixOf_pt]
  unfold Cert.CostSpec.colT
  rw [dif_pos (by have := k.isLt; omega)]

/-- A tile's sum of a function of the logits is the next 4096 terms of the row's running sum. -/
theorem tile_x (c : Dev nD) (n p : ℕ) (hn : n < 4) (hp : p < 16) (r : Fin 200) (g : EReal → EReal) :
    ∑ k : Fin 4096, g (xblk m c (pt n p hn hp) (ix2 r k))
      = ∑ k ∈ Finset.range 4096, g (Cert.CostSpec.colX (xarr m c) (rowAt n hn r) (4096 * p + k)) := by
  rw [Finset.sum_range (fun k => g (Cert.CostSpec.colX (xarr m c) (rowAt n hn r) (4096 * p + k)))]
  exact Finset.sum_congr rfl fun k _ => congrArg g (xblk_col m c n p hn hp r k)

/-- The same for a function of a logit and a target entry. -/
theorem tile_xt (c : Dev nD) (n p : ℕ) (hn : n < 4) (hp : p < 16) (r : Fin 200) (j : Fin 160) (g : EReal → EReal) :
    ∑ k : Fin 4096, g (xblk m c (pt n p hn hp) (ix2 r k)) * tblk m c (pt n p hn hp) (ix2 j k)
      = ∑ k ∈ Finset.range 4096, g (Cert.CostSpec.colX (xarr m c) (rowAt n hn r) (4096 * p + k))
          * Cert.CostSpec.colT (tarr m c) j (4096 * p + k) := by
  rw [Finset.sum_range (fun k => g (Cert.CostSpec.colX (xarr m c) (rowAt n hn r) (4096 * p + k))
    * Cert.CostSpec.colT (tarr m c) j (4096 * p + k))]
  exact Finset.sum_congr rfl fun k _ => by rw [xblk_col m c n p hn hp r k, tblk_col m c n p hn hp j k]

/-- The plain product of a logit and a target entry. -/
theorem tile_cross (c : Dev nD) (n p : ℕ) (hn : n < 4) (hp : p < 16) (r : Fin 200) (j : Fin 160) :
    ∑ k : Fin 4096, xblk m c (pt n p hn hp) (ix2 r k) * tblk m c (pt n p hn hp) (ix2 j k)
      = ∑ k ∈ Finset.range 4096, Cert.CostSpec.colX (xarr m c) (rowAt n hn r) (4096 * p + k)
          * Cert.CostSpec.colT (tarr m c) j (4096 * p + k) :=
  tile_xt m c n p hn hp r j (fun x => x)

/-- The four accumulators after pixel tile p, at row r and target j: the running sums over 4096 (p + 1) pixels. -/
theorem acc_apply (c : Dev nD) (n : ℕ) (hn : n < 4) : ∀ (p : ℕ) (hp : p < 16) (r : Fin 200) (j : Fin 160),
    (acc m c n hn p hp).1 (ix2 r (0 : Fin 1)) = Cert.CostSpec.rowPos (xarr m c) (rowAt n hn r) (4096 * (p + 1))
    ∧ (acc m c n hn p hp).2.1 (ix2 r (0 : Fin 1)) = Cert.CostSpec.rowSig (xarr m c) (rowAt n hn r) (4096 * (p + 1))
    ∧ (acc m c n hn p hp).2.2.1 (ix2 r j)
        = Cert.CostSpec.cross (xarr m c) (tarr m c) (rowAt n hn r) j (4096 * (p + 1))
    ∧ (acc m c n hn p hp).2.2.2 (ix2 r j)
        = Cert.CostSpec.num (xarr m c) (tarr m c) (rowAt n hn r) j (4096 * (p + 1))
  | 0, hp, r, j => by
    simp only [acc]
    refine ⟨?_, ?_, ?_, ?_⟩
    · rw [row_apply, pay4_apply, zero_add, tile_x m c n 0 hn hp r Cert.CostSpec.pos]
      unfold Cert.CostSpec.rowPos
      simp only [Nat.mul_zero, Nat.zero_add, Nat.mul_one]
    · rw [sig_apply, pay5_apply, zero_add, tile_x m c n 0 hn hp r Cert.CostSpec.sig]
      unfold Cert.CostSpec.rowSig
      simp only [Nat.mul_zero, Nat.zero_add, Nat.mul_one]
    · rw [cross_apply, pay6_apply, zero_add, tile_cross m c n 0 hn hp r j]
      unfold Cert.CostSpec.cross
      simp only [Nat.mul_zero, Nat.zero_add, Nat.mul_one]
    · rw [num_apply, pay7_apply, zero_add, tile_xt m c n 0 hn hp r j Cert.CostSpec.sig]
      unfold Cert.CostSpec.num
      simp only [Nat.mul_zero, Nat.zero_add, Nat.mul_one]
  | p + 1, hp, r, j => by
    obtain ⟨i1, i2, i3, i4⟩ := acc_apply c n hn p (Nat.lt_of_succ_lt hp) r j
    simp only [acc]
    have e : 4096 * (p + 1 + 1) = 4096 * (p + 1) + 4096 := by omega
    refine ⟨?_, ?_, ?_, ?_⟩
    · rw [row_apply, i1, tile_x m c n (p + 1) hn hp r Cert.CostSpec.pos]
      unfold Cert.CostSpec.rowPos
      rw [e, Finset.sum_range_add]
    · rw [sig_apply, i2, tile_x m c n (p + 1) hn hp r Cert.CostSpec.sig]
      unfold Cert.CostSpec.rowSig
      rw [e, Finset.sum_range_add]
    · rw [cross_apply, i3, tile_cross m c n (p + 1) hn hp r j]
      unfold Cert.CostSpec.cross
      rw [e, Finset.sum_range_add]
    · rw [num_apply, i4, tile_xt m c n (p + 1) hn hp r j Cert.CostSpec.sig]
      unfold Cert.CostSpec.num
      rw [e, Finset.sum_range_add]

/-- The output block of row tile n's last point, at (r, j), is the cost at row 200 n + r and target j. -/
theorem block_eq (c : Dev nD) (n : ℕ) (hn : n < 4) (r : Fin 200) (j : Fin 160) :
    (outsAt0 m c (pt n 15 hn (by omega)).val (pt n 15 hn (by omega)).isLt).1 (ix2 r j)
      = Cert.CostSpec.G (carr m c) (xarr m c) (tarr m c) (ix2 (rowAt n hn r) j) := by
  obtain ⟨i1, i2, i3, i4⟩ := acc_apply m c n hn 15 (by omega) r j
  rw [out_eq, out_apply, i1, i2, i3, i4, cblk_apply, sblk_apply, sarr_apply, rowOf_pt]
  rfl

end Cert.KernelIdeal.Accum

end
-- ==== Proof.KFinal.lean ====
/-
  From the output blocks to the result: the [800, 160] array the region writes is the cost matrix, and the
  program's result is its reshape.

  The output window is written back only at the last pixel tile of each row tile: point 16 n + 15 writes rows
  200 n .. 200 n + 199, all 160 columns, and those four blocks tile the array. Each written block is the cost
  matrix read through the block (the block's index (r, j) sits at row 200 n + r, column j), so the array ends as
  the cost matrix; the one host operation after the region reshapes it to [8, 100, 160].
-/
import proofs.«158816_j41274635715334_1_alg».proof.Proof.KAccum
import Idealize.ShloMosaic.Lib.Pipeline.Value
import Idealize.ShloMosaic.Lib.StableHlo.Run

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Names Cert.KernelIdeal.Chain Cert.KernelIdeal.Accum

variable (m : (ℓ : Loc nD τ sig) → Buf (Elt Ideal) ℓ) (ρ : Dev nD → PrngReg)

/-- The cost matrix of the arrays the region finds. -/
abbrev costArr (c : Dev nD) : Vec Ideal S800x160 .f32 := Cert.CostSpec.G (carr m c) (xarr m c) (tarr m c)

theorem lt15 : 15 < 16 := by decide

/-- The output window's index map over the grid: block row = the row tile, block column 0. -/
theorem idx_out : ∀ t : Fin cfg0.N, win0_4.index t (0 : Fin 2) = t.val / 16 ∧ win0_4.index t (1 : Fin 2) = 0 :=
  (by decide +kernel : ∀ t : Fin grid0.N, _)

/-- What a writing point writes back is its block of the cost matrix. -/
theorem flushed_eq (c : Dev nD) (t : Fin cfg0.N) (hf : (cfg0.win 4).flush t = true) :
    (dats m 0 c).flushed 4 t = ((cfg0.win 4).blk t).view.read (Elt Ideal) (costArr m c) := by
  have hN : cfg0.N = 64 := N_0
  have h15 : t.val % 16 = 15 := (flush0_4 t).mp hf
  have hlt := t.isLt
  obtain ⟨n, hn, rfl⟩ : ∃ (n : ℕ) (hn : n < 4), t = pt n 15 hn lt15 :=
    ⟨t.val / 16, by omega, Fin.ext (by show t.val = 16 * (t.val / 16) + 15; omega)⟩
  show (cfg0.win 4).cut (grid0.coords (pt n 15 hn lt15)) ((dats m 0 c).after 4 (pt n 15 hn lt15)) = _
  rw [after0_4]
  funext y
  obtain ⟨r, j, rfl⟩ : ∃ (r : Fin 200) (j : Fin 160), y = ix2 r j := ⟨y 0, y 1, @eq_ix2 200 160 y⟩
  show (outsAt0 m c (pt n 15 hn lt15).val (pt n 15 hn lt15).isLt).1 (ix2 r j)
    = costArr m c (((cfg0.win 4).blk (pt n 15 hn lt15)).view.emb (ix2 r j))
  rw [block_eq m c n hn r j]
  obtain ⟨e0, e1⟩ := idx_out (pt n 15 hn lt15)
  refine congrArg (costArr m c) ?_
  funext a
  apply Fin.ext
  match a with
  | ⟨0, _⟩ =>
    show 200 * n + r.val = win0_4.index (pt n 15 hn lt15) (0 : Fin 2) * 200 + 1 * r.val
    rw [e0]; show 200 * n + r.val = (16 * n + 15) / 16 * 200 + 1 * r.val; omega
  | ⟨1, _⟩ =>
    show j.val = win0_4.index (pt n 15 hn lt15) (1 : Fin 2) * 160 + 1 * j.val
    rw [e1]; omega

/-- An index of the array is in point t's block iff each coordinate is in the block's range on its axis. -/
theorem mem_blk (t : Fin cfg0.N) (i : S800x160.Idx) :
    i ∈ ((cfg0.win 4).blk t).view.set ↔ ∀ a : Fin 2, win0_4.index t a * S200x160.size a ≤ (i a).val ∧ (i a).val < win0_4.index t a * S200x160.size a + S200x160.size a := by
  show i ∈ ((View.whole main_v24).slice (win0_4.rect t)).set ↔ _
  rw [View.set_slice_whole, Rect.mem_set_unit]
  exact Iff.rfl

/-- The four written blocks cover the array: row R lies in the block of row tile R / 200. -/
theorem cover (i : S800x160.Idx) :
    ∃ t : Fin cfg0.N, (cfg0.win 4).flush t = true ∧ i ∈ ((cfg0.win 4).blk t).view.set := by
  have hi0 : (i 0).val < 800 := (i 0).isLt
  have hi1 : (i 1).val < 160 := (i 1).isLt
  have hn : (i 0).val / 200 < 4 := by omega
  refine ⟨pt ((i 0).val / 200) 15 hn lt15, (flush0_4 _).mpr (by show (16 * ((i 0).val / 200) + 15) % 16 = 15; omega), ?_⟩
  rw [mem_blk]
  obtain ⟨e0, e1⟩ := idx_out (pt ((i 0).val / 200) 15 hn lt15)
  intro a
  match a with
  | ⟨0, _⟩ =>
    show win0_4.index (pt ((i 0).val / 200) 15 hn lt15) (0 : Fin 2) * 200 ≤ (i 0).val ∧ (i 0).val < win0_4.index (pt ((i 0).val / 200) 15 hn lt15) (0 : Fin 2) * 200 + 200
    rw [e0]; show (16 * ((i 0).val / 200) + 15) / 16 * 200 ≤ (i 0).val ∧ (i 0).val < (16 * ((i 0).val / 200) + 15) / 16 * 200 + 200; omega
  | ⟨1, _⟩ =>
    show win0_4.index (pt ((i 0).val / 200) 15 hn lt15) (1 : Fin 2) * 160 ≤ (i 1).val ∧ (i 1).val < win0_4.index (pt ((i 0).val / 200) 15 hn lt15) (1 : Fin 2) * 160 + 160
    rw [e1]; omega

/-- The array the region writes ends as the cost matrix. -/
theorem final (c : Dev nD) : (dats m 0 c).arrAt 4 cfg0.N = costArr m c :=
  (dats m 0 c).arrAt_eq_of_cover 4 (costArr m c) (flushed_eq m c) (cover)

/-- The program's result: the reshape of the cost matrix. -/
abbrev result (c : Dev nD) : Buf (Elt Ideal) ((c : Thread nD τ).loc main_v25) :=
  shapeCast S8x100x160 (costArr m c) shapeCasts_S800x160_S8x100x160

/-- The one host operation after the region reshapes the array the region wrote. -/
theorem tail_eq (c : Dev nD) :
    Pipeline.afterTail₀ cfgs (dats m) 0 (V0 m) [hostOps1] c main_v25 = result m c := by
  unfold Pipeline.afterTail₀
  show StableHlo.after hostOps1 _ (Proc.devRef .tc main_v25) = _
  after_results
  rw [(Pipeline.withArrays_arr spec0 launch0.win.arr_inj c _ _ 4).trans (final m c)]
  rfl

/-- Every weakly fair execution ends with the result at the reshaped cost matrix and the arguments unchanged. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v25 (Pipeline.mem_restRefs_of main_v25 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c)))⟩) (run_main m ρ)

end Cert.KernelIdeal.Final

end
-- ==== Proof.KCls.lean ====
/-
  The two programs compute the class table and the reshaped mask logits by the SAME host operations of the same
  arguments: the arrays the kernel region finds are the reference's own terms of them.
-/
import proofs.«158816_j41274635715334_1_alg».proof.Proof.KNames
import proofs.«158816_j41274635715334_1_alg».proof.Proof.Gen.ReferenceIdeal.Read
import Idealize.ShloMosaic.Lib.StableHlo.Run

noncomputable section

namespace Cert.KernelIdeal.Shared

open Idealize.ShloMosaic Idealize.ShloMosaic.TcCoe Idealize.SL.Sem
open Cert.KernelIdeal Cert.KernelIdeal.Gen Cert.KernelIdeal.Names

variable {F : FTy → Type} [FloatOps F]
variable (m : (ℓ : Loc nD τ sig) → Buf (Elt F) ℓ)

/-- The class table the region finds is the reference's class table of the same logits and target ids. -/
theorem carr_eq (c : Dev nD) :
    carr m c = Cert.ReferenceIdeal.Read.val_main_v19 (F := F)
      (m ((c : Thread nD τ).loc main_arg0)) (m ((c : Thread nD τ).loc main_arg2)) := by
  -- the region finds the result of the twenty-five operations up to the negation; the reference's stages, opened down
  -- to the arguments, are the same operations on the same arguments
  show StableHlo.after hostOps0 (fun b => m (c, b)) (Proc.devRef .tc main_v19) = _
  after_results_simp
  unfold
    Cert.ReferenceIdeal.Read.val_main_v19 Cert.ReferenceIdeal.Read.val_main_v18 Cert.ReferenceIdeal.Read.val_main_v17
    Cert.ReferenceIdeal.Read.val_main_v16 Cert.ReferenceIdeal.Read.val_main_v15 Cert.ReferenceIdeal.Read.val_main_v14
    Cert.ReferenceIdeal.Read.val_main_c_2 Cert.ReferenceIdeal.Read.val_main_v13 Cert.ReferenceIdeal.Read.val_main_v12
    Cert.ReferenceIdeal.Read.val_main_c Cert.ReferenceIdeal.Read.val_main_v11 Cert.ReferenceIdeal.Read.val_main_v10
    Cert.ReferenceIdeal.Read.val_main_v9 Cert.ReferenceIdeal.Read.val_main_v8 Cert.ReferenceIdeal.Read.val_main_cst_1
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_cst_0 Cert.ReferenceIdeal.Read.val_main_v1 Cert.ReferenceIdeal.Read.val_main_cst
    Cert.ReferenceIdeal.Read.val_main_v0
  rfl

/-- The mask logits the region finds are the reference's reshape of the same argument. -/
theorem xarr_eq (c : Dev nD) :
    xarr m c = Cert.ReferenceIdeal.Read.val_main_v20 (F := F) (m ((c : Thread nD τ).loc main_arg1)) := by
  show StableHlo.after hostOps0 (fun b => m (c, b)) (Proc.devRef .tc main_v20) = _
  after_results
  unfold Cert.ReferenceIdeal.Read.val_main_v20
  rfl

end Cert.KernelIdeal.Shared

end
-- ==== Proof.RefSide.lean ====
/-
  The reference's cost matrix, read one operation at a time, is the cost function of its own class table, its
  reshaped mask logits and the target masks.
-/
import proofs.«158816_j41274635715334_1_alg».proof.Proof.Gen.ReferenceIdeal.Run
import proofs.«158816_j41274635715334_1_alg».proof.Proof.Gen.ReferenceIdeal.Read
import proofs.«158816_j41274635715334_1_alg».proof.Proof.Spec
import proofs.«158816_j41274635715334_1_alg».proof.Proof.LibDot2
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read

section pieces

variable (x1 : (⟨S8x100x256x256, .f32⟩ : BufTy).Contents (Elt Ideal))
  (x3 : (⟨S160x65536, .f32⟩ : BufTy).Contents (Elt Ideal))

/-! ## The two pointwise maps of the mask logits -/

/-- One element of max(x, 0) + log(1 + e^(-|x|)): the start value 0 of the maximum is the real zero. -/
theorem pos_at (R : Fin 800) (k : Fin 65536) :
    val_main_v27 (F := Ideal) x1 (ix2 R k) = Cert.CostSpec.pos (val_main_v20 (F := Ideal) x1 (ix2 R k)) := by
  simp only [val_main_v27_apply, val_main_v22_apply, val_main_v26_apply, val_main_v25_apply, val_main_v24_apply,
    val_main_v23_apply, val_main_v21_apply, val_main_cst_3_apply]
  generalize val_main_v20 (F := Ideal) x1 (ix2 R k) = a
  show max a (Ideal.ofBits .f32 0x00000000#32) + Ideal.log1p (Ideal.exp (-(max a (-a)))) = _
  rw [Ideal.ofBits_zero_f32]; rfl

/-- One element of 1 / (1 + e^(-x)): both ones are the real one. -/
theorem sig_at (R : Fin 800) (k : Fin 65536) :
    val_main_v41 (F := Ideal) x1 (ix2 R k) = Cert.CostSpec.sig (val_main_v20 (F := Ideal) x1 (ix2 R k)) := by
  simp only [val_main_v41_apply, val_main_v40_apply, val_main_cst_7_apply, val_main_v39_apply, val_main_v38_apply,
    val_main_cst_6_apply, val_main_v37_apply, val_main_v36_apply]
  generalize val_main_v20 (F := Ideal) x1 (ix2 R k) = a
  show Ideal.div (Ideal.ofBits .f32 0x3F800000#32) (Ideal.ofBits .f32 0x3F800000#32 + Ideal.exp (-a)) = _
  rw [Cert.CostSpec.ofBits_one]; rfl

end pieces

section sums

variable (x1 : (⟨S8x100x256x256, .f32⟩ : BufTy).Contents (Elt Ideal))
  (x3 : (⟨S160x65536, .f32⟩ : BufTy).Contents (Elt Ideal))

/-! ## The sums over the 65536 pixels -/

/-- Row R of the summed max(x, 0) + log(1 + e^(-|x|)): the start value is the real zero, and the sum over the
    pixel axis is the range sum of the row's column function. -/
theorem rowPos_at (R : Fin 800) :
    val_main_v28 (F := Ideal) x1 (ix1 R) = Cert.CostSpec.rowPos (val_main_v20 (F := Ideal) x1) R 65536 := by
  rw [val_main_v28_apply, val_main_cst_4_apply, Ideal.ofBits_def, Ideal.ofBits_zero_f32, zero_add]
  refine (Finset.sum_congr rfl fun k _ => ?_).trans
    (Cert.CostSpec.sum_fin_eq_range fun k => Cert.CostSpec.pos (Cert.CostSpec.colX (val_main_v20 (F := Ideal) x1) R k))
  have e : idx_main_v28 (ix1 R) k = ix2 R k :=
    funext fun a => Fin.ext (by match a with | ⟨0, _⟩ => rfl | ⟨1, _⟩ => rfl)
  rw [e, pos_at]
  show _ = Cert.CostSpec.pos (Cert.CostSpec.colX (val_main_v20 (F := Ideal) x1) R k.val)
  rw [Cert.CostSpec.colX_fin]

/-- Row R of the summed 1 / (1 + e^(-x)). -/
theorem rowSig_at (R : Fin 800) :
    val_main_v46 (F := Ideal) x1 (ix1 R) = Cert.CostSpec.rowSig (val_main_v20 (F := Ideal) x1) R 65536 := by
  rw [val_main_v46_apply, val_main_cst_9_apply, Ideal.ofBits_def, Ideal.ofBits_zero_f32, zero_add]
  refine (Finset.sum_congr rfl fun k _ => ?_).trans
    (Cert.CostSpec.sum_fin_eq_range fun k => Cert.CostSpec.sig (Cert.CostSpec.colX (val_main_v20 (F := Ideal) x1) R k))
  have e : idx_main_v46 (ix1 R) k = ix2 R k :=
    funext fun a => Fin.ext (by match a with | ⟨0, _⟩ => rfl | ⟨1, _⟩ => rfl)
  rw [e, sig_at]
  show _ = Cert.CostSpec.sig (Cert.CostSpec.colX (val_main_v20 (F := Ideal) x1) R k.val)
  rw [Cert.CostSpec.colX_fin]

/-- Row j of the summed target masks. -/
theorem tsum_at (j : Fin 160) :
    val_main_v48 (F := Ideal) x3 (ix1 j) = Cert.CostSpec.tsum x3 j := by
  rw [val_main_v48_apply, val_main_cst_10_apply, Ideal.ofBits_def, Ideal.ofBits_zero_f32, zero_add]
  refine (Finset.sum_congr rfl fun k _ => ?_).trans
    (Cert.CostSpec.sum_fin_eq_range fun k => Cert.CostSpec.colT x3 j k)
  have e : idx_main_v48 (ix1 j) k = ix2 j k :=
    funext fun a => Fin.ext (by match a with | ⟨0, _⟩ => rfl | ⟨1, _⟩ => rfl)
  rw [e]
  show _ = Cert.CostSpec.colT x3 j k.val
  rw [Cert.CostSpec.colT_fin]

/-- Element (R, j) of x times the transposed target masks: the transpose reads row j of the masks at the
    contracted pixel. -/
theorem cross_at (R : Fin 800) (j : Fin 160) :
    val_main_v30 (F := Ideal) x1 x3 (ix2 R j)
      = Cert.CostSpec.cross (val_main_v20 (F := Ideal) x1) x3 R j 65536 := by
  rw [val_main_v30_apply]
  refine (Finset.sum_congr rfl fun k _ => ?_).trans
    (Cert.CostSpec.sum_fin_eq_range fun k =>
      Cert.CostSpec.colX (val_main_v20 (F := Ideal) x1) R k * Cert.CostSpec.colT x3 j k)
  have el : lidx_main_v30 (ix2 R j) k = ix2 R k :=
    funext fun a => Fin.ext (by match a with | ⟨0, _⟩ => rfl | ⟨1, _⟩ => rfl)
  have er : idx_main_v29 (ridx_main_v30 (ix2 R j) k) = ix2 j k :=
    funext fun a => Fin.ext (by match a with | ⟨0, _⟩ => rfl | ⟨1, _⟩ => rfl)
  rw [val_main_v29_apply, el, er]
  show _ = Cert.CostSpec.colX (val_main_v20 (F := Ideal) x1) R k.val * Cert.CostSpec.colT x3 j k.val
  rw [Cert.CostSpec.colX_fin, Cert.CostSpec.colT_fin]

/-- Element (R, j) of sigma(x) times the transposed target masks. -/
theorem num_at (R : Fin 800) (j : Fin 160) :
    val_main_v43 (F := Ideal) x1 x3 (ix2 R j)
      = Cert.CostSpec.num (val_main_v20 (F := Ideal) x1) x3 R j 65536 := by
  rw [val_main_v43_apply]
  refine (Finset.sum_congr rfl fun k _ => ?_).trans
    (Cert.CostSpec.sum_fin_eq_range fun k =>
      Cert.CostSpec.sig (Cert.CostSpec.colX (val_main_v20 (F := Ideal) x1) R k) * Cert.CostSpec.colT x3 j k)
  have el : lidx_main_v43 (ix2 R j) k = ix2 R k :=
    funext fun a => Fin.ext (by match a with | ⟨0, _⟩ => rfl | ⟨1, _⟩ => rfl)
  have er : idx_main_v42 (ridx_main_v43 (ix2 R j) k) = ix2 j k :=
    funext fun a => Fin.ext (by match a with | ⟨0, _⟩ => rfl | ⟨1, _⟩ => rfl)
  rw [val_main_v42_apply, el, er, sig_at]
  show _ = Cert.CostSpec.sig (Cert.CostSpec.colX (val_main_v20 (F := Ideal) x1) R k.val)
    * Cert.CostSpec.colT x3 j k.val
  rw [Cert.CostSpec.colX_fin, Cert.CostSpec.colT_fin]

end sums

/-! ## The combination -/

/-- The [800, 160] array the reference reshapes into its result is the cost matrix. -/
theorem ref_eq (x0 : (⟨S8x100x81, .f32⟩ : BufTy).Contents (Elt Ideal))
    (x1 : (⟨S8x100x256x256, .f32⟩ : BufTy).Contents (Elt Ideal))
    (x2 : (⟨S160, .i32⟩ : BufTy).Contents (Elt Ideal))
    (x3 : (⟨S160x65536, .f32⟩ : BufTy).Contents (Elt Ideal)) :
    val_main_v67 (F := Ideal) x0 x1 x2 x3
      = Cert.CostSpec.G (val_main_v19 (F := Ideal) x0 x2) (val_main_v20 (F := Ideal) x1) x3 := by
  funext i
  obtain ⟨R, j, rfl⟩ : ∃ (R : Fin 800) (j : Fin 160), i = ix2 R j := ⟨i 0, i 1, eq_ix2 i⟩
  -- the two column broadcasts read row R, the row broadcast reads column j
  have e32 : idx_main_v31 (idx_main_v32 (ix2 R j)) = ix1 R :=
    funext fun a => Fin.ext (by match a with | ⟨0, _⟩ => rfl)
  have e50 : idx_main_v47 (idx_main_v50 (ix2 R j)) = ix1 R :=
    funext fun a => Fin.ext (by match a with | ⟨0, _⟩ => rfl)
  have e51 : idx_main_v49 (idx_main_v51 (ix2 R j)) = ix1 j :=
    funext fun a => Fin.ext (by match a with | ⟨0, _⟩ => rfl)
  simp only [val_main_v67_apply, val_main_v64_apply, val_main_v66_apply, val_main_v61_apply, val_main_v63_apply,
    val_main_v59_apply, val_main_v57_apply, val_main_v54_apply, val_main_v56_apply, val_main_v52_apply,
    val_main_v45_apply, val_main_v35_apply, val_main_v33_apply,
    val_main_v32_apply, val_main_v31_apply, val_main_v50_apply, val_main_v47_apply, val_main_v51_apply,
    val_main_v49_apply,
    val_main_v60_apply, val_main_cst_14_apply, val_main_v62_apply, val_main_cst_15_apply, val_main_v65_apply,
    val_main_cst_16_apply, val_main_v58_apply, val_main_cst_13_apply, val_main_v55_apply, val_main_cst_12_apply,
    val_main_v53_apply, val_main_cst_11_apply, val_main_v44_apply, val_main_cst_8_apply, val_main_v34_apply,
    val_main_cst_5_apply]
  rw [e32, e50, e51, rowPos_at, cross_at, num_at, rowSig_at, tsum_at]
  simp only [Ideal.addf_def, Ideal.subf_def, Ideal.mulf_def, Ideal.hostDivf_def, Ideal.ofBits_def]
  rw [Cert.CostSpec.scale_eq, Cert.CostSpec.ofBits_one, Cert.CostSpec.ofBits_two]
  rfl

end Cert.ReferenceIdeal.RefValue

end
-- ==== Proof.lean ====
/-
  The certificate: a tiled matching-cost kernel against its plain reference, equal over the extended reals.

  Both programs compute, for 800 predictions and 160 targets over 65536 pixels,
      cost = 1 * (negated class probability) + 1 * (binary-cross-entropy part) + 1 * (dice part).
  The kernel walks a 4 x 16 grid (row tiles of 200 predictions, pixel tiles of 4096 pixels), accumulates four
  sums in scratch across the sixteen pixel tiles of a row tile and combines them at the last one; the reference
  takes the four sums over all 65536 pixels at once. On the extended reals a sum taken tile by tile is the sum
  (addition is associative and commutative there, infinities included), a change of float format is the identity,
  the kernel's one-operation sigmoid is the reference's 1 / (1 + e^(-x)), 0 - |x| is -|x|, and multiplying by
  2^-16 is dividing by 65536 — so the two results agree index by index, with no appeal to finiteness.

  Kernel side: what each grid point leaves in the accumulators (KPieces, KChain), read at an index (KPay, KHost,
  KAccum), assembled into the array the region writes and the reshaped result (KFinal). Reference side: its run read
  one operation at a time (RefSide). The class table and the reshaped logits are computed by the same host
  operations in both programs (KCls). The three frames are the generated ones; the idealization rewrote nothing.
-/
import proofs.«158816_j41274635715334_1_alg».proof.Defs
import proofs.«158816_j41274635715334_1_alg».proof.Proof.Gen.Kernel
import proofs.«158816_j41274635715334_1_alg».proof.Proof.Gen.Kernel.Frame
import proofs.«158816_j41274635715334_1_alg».proof.Proof.Gen.KernelIdeal
import proofs.«158816_j41274635715334_1_alg».proof.Proof.Gen.KernelIdeal.Frame
import proofs.«158816_j41274635715334_1_alg».proof.Proof.Gen.ReferenceIdeal
import proofs.«158816_j41274635715334_1_alg».proof.Proof.Gen.ReferenceIdeal.Run
import proofs.«158816_j41274635715334_1_alg».proof.Proof.Gen.ReferenceIdeal.Read
import proofs.«158816_j41274635715334_1_alg».proof.Proof.Gen.Pre_finite_inputs
import proofs.«158816_j41274635715334_1_alg».proof.Proof.KFinal
import proofs.«158816_j41274635715334_1_alg».proof.Proof.KCls
import proofs.«158816_j41274635715334_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The cost matrix of the arrays the kernel's region finds is the reference's [800, 160] array of the same
    arguments: the class table and the reshaped logits are the reference's own stages, the targets the argument. -/
theorem cost_eq (m : (ℓ : Loc Cert.KernelIdeal.nD Cert.KernelIdeal.τ Cert.KernelIdeal.sig) → Buf (Elt Ideal) ℓ)
    (c : Dev Cert.KernelIdeal.nD) :
    Cert.KernelIdeal.Final.costArr m c
      = Cert.ReferenceIdeal.Read.val_main_v67 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.ReferenceIdeal.RefValue.ref_eq]
  unfold Cert.KernelIdeal.Final.costArr
  rw [Cert.KernelIdeal.Shared.carr_eq, Cert.KernelIdeal.Shared.xarr_eq, Cert.KernelIdeal.HostSide.tarr_eq]

/-- Both idealized programs end at the reshape of the same cost matrix. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, (hagree c).1, (hagree c).2.1, (hagree c).2.2.1, (hagree c).2.2.2]
  unfold Cert.ReferenceIdeal.Read.val_main_v68 Cert.KernelIdeal.Final.result
  show _ = shapeCast Cert.KernelIdeal.S8x100x160 (Cert.KernelIdeal.Final.costArr m c)
    Cert.KernelIdeal.Gen.shapeCasts_S800x160_S8x100x160
  rw [cost_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
